-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x29x128 : Shape := ⟨3, ![50000, 29, 128]⟩
abbrev S50000x2304 : Shape := ⟨2, ![50000, 2304]⟩
abbrev S1024x896 : Shape := ⟨2, ![1024, 896]⟩
abbrev S1024 : Shape := ⟨1, ![1024]⟩
abbrev S768x768 : Shape := ⟨2, ![768, 768]⟩
abbrev S640x640 : Shape := ⟨2, ![640, 640]⟩
abbrev S_ : Shape := ⟨0, ![]⟩

class Facts : Prop where
  bcast_S_S50000x29x128 : S_.BroadcastsInDim S50000x29x128 (![] : Fin 0 → Fin S50000x29x128.rank)
  reducesTo_S50000x29x128_S_d0_1_2 : S50000x29x128.ReducesTo [0, 1, 2] S_
  h_S_ : 0 < S_.numel
  bcast_S_S50000x2304 : S_.BroadcastsInDim S50000x2304 (![] : Fin 0 → Fin S50000x2304.rank)
  reducesTo_S50000x2304_S_d0_1 : S50000x2304.ReducesTo [0, 1] S_
  bcast_S_S1024x896 : S_.BroadcastsInDim S1024x896 (![] : Fin 0 → Fin S1024x896.rank)
  reducesTo_S1024x896_S_d0_1 : S1024x896.ReducesTo [0, 1] S_
  bcast_S_S1024 : S_.BroadcastsInDim S1024 (![] : Fin 0 → Fin S1024.rank)
  reducesTo_S1024_S_d0 : S1024.ReducesTo [0] S_
  bcast_S_S768x768 : S_.BroadcastsInDim S768x768 (![] : Fin 0 → Fin S768x768.rank)
  reducesTo_S768x768_S_d0_1 : S768x768.ReducesTo [0, 1] S_
  bcast_S_S640x640 : S_.BroadcastsInDim S640x640 (![] : Fin 0 → Fin S640x640.rank)
  reducesTo_S640x640_S_d0_1 : S640x640.ReducesTo [0, 1] S_

variable [Facts]

def fn_part2 {F : FTy → Type} [FloatOps F] (main_arg7 : FVec F S640x640 .f32) (main_v33 : IVec S_ 1) : IVec S_ 1 :=
  let main_v34 : FVec F S640x640 .f32 := Host.absf main_arg7
  let main_cst_12 : FVec F S_ .f32 := constant S_ .f32 0x7F800000#32
  let main_v35 : FVec F S640x640 .f32 := broadcastInDim S640x640 ![] bcast_S_S640x640 main_cst_12
  let main_v36 : IVec S640x640 1 := cmpf .olt main_v34 main_v35
  let main_c_13 : IVec S_ 1 := constantI S_ 1 1#1
  let main_v37 : IVec S_ 1 := (fun x v => Host.reduce IntOp.andi x v reducesTo_S640x640_S_d0_1 h_S_) main_v36 main_c_13
  let main_v38 : IVec S_ 1 := andi main_v33 main_v37
  main_v38

def fn_part1 {F : FTy → Type} [FloatOps F] (main_arg4 : FVec F S768x768 .f32) (main_arg5 : FVec F S768x768 .f32) (main_arg6 : FVec F S640x640 .f32) (main_arg7 : FVec F S640x640 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S640x640 .f32 := Host.absf main_arg6
  let main_cst_10 : FVec F S_ .f32 := constant S_ .f32 0x7F800000#32
  let main_v30 : FVec F S640x640 .f32 := broadcastInDim S640x640 ![] bcast_S_S640x640 main_cst_10
  let main_v31 : IVec S640x640 1 := cmpf .olt main_v29 main_v30
  let main_c_11 : IVec S_ 1 := constantI S_ 1 1#1
  let main_v32 : IVec S_ 1 := (fun x v => Host.reduce IntOp.andi x v reducesTo_S640x640_S_d0_1 h_S_) main_v31 main_c_11
  let main_v33 : IVec S_ 1 := andi main_v28 main_v32
  fn_part2 (F := F) main_arg7 main_v33

def fn {F : FTy → Type} [FloatOps F] (main_arg0 : FVec F S50000x29x128 .f32) (main_arg1 : FVec F S50000x2304 .f32) (main_arg2 : FVec F S1024x896 .f32) (main_arg3 : FVec F S1024 .f32) (main_arg4 : FVec F S768x768 .f32) (main_arg5 : FVec F S768x768 .f32) (main_arg6 : FVec F S640x640 .f32) (main_arg7 : FVec F S640x640 .f32) : IVec S_ 1 :=
  let main_v0 : FVec F S50000x29x128 .f32 := Host.absf main_arg0
  let main_cst : FVec F S_ .f32 := constant S_ .f32 0x7F800000#32
  let main_v1 : FVec F S50000x29x128 .f32 := broadcastInDim S50000x29x128 ![] bcast_S_S50000x29x128 main_cst
  let main_v2 : IVec S50000x29x128 1 := cmpf .olt main_v0 main_v1
  let main_c : IVec S_ 1 := constantI S_ 1 1#1
  let main_v3 : IVec S_ 1 := (fun x v => Host.reduce IntOp.andi x v reducesTo_S50000x29x128_S_d0_1_2 h_S_) main_v2 main_c
  let main_v4 : FVec F S50000x2304 .f32 := Host.absf main_arg1
  let main_cst_0 : FVec F S_ .f32 := constant S_ .f32 0x7F800000#32
  let main_v5 : FVec F S50000x2304 .f32 := broadcastInDim S50000x2304 ![] bcast_S_S50000x2304 main_cst_0
  let main_v6 : IVec S50000x2304 1 := cmpf .olt main_v4 main_v5
  let main_c_1 : IVec S_ 1 := constantI S_ 1 1#1
  let main_v7 : IVec S_ 1 := (fun x v => Host.reduce IntOp.andi x v reducesTo_S50000x2304_S_d0_1 h_S_) main_v6 main_c_1
  let main_v8 : IVec S_ 1 := andi main_v3 main_v7
  let main_v9 : FVec F S1024x896 .f32 := Host.absf main_arg2
  let main_cst_2 : FVec F S_ .f32 := constant S_ .f32 0x7F800000#32
  let main_v10 : FVec F S1024x896 .f32 := broadcastInDim S1024x896 ![] bcast_S_S1024x896 main_cst_2
  let main_v11 : IVec S1024x896 1 := cmpf .olt main_v9 main_v10
  let main_c_3 : IVec S_ 1 := constantI S_ 1 1#1
  let main_v12 : IVec S_ 1 := (fun x v => Host.reduce IntOp.andi x v reducesTo_S1024x896_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S50000x29x128 : Shape := ⟨3, ![50000, 29, 128]⟩
abbrev S50000x2304 : Shape := ⟨2, ![50000, 2304]⟩
abbrev S1024x896 : Shape := ⟨2, ![1024, 896]⟩
abbrev S1024 : Shape := ⟨1, ![1024]⟩
abbrev S768x768 : Shape := ⟨2, ![768, 768]⟩
abbrev S640x640 : Shape := ⟨2, ![640, 640]⟩
abbrev S896x1024 : Shape := ⟨2, ![896, 1024]⟩
abbrev S1x1024 : Shape := ⟨2, ![1, 1024]⟩
abbrev S768x1536 : Shape := ⟨2, ![768, 1536]⟩
abbrev S1536x1536 : Shape := ⟨2, ![1536, 1536]⟩
abbrev S640x1280 : Shape := ⟨2, ![640, 1280]⟩
abbrev S1280x1280 : Shape := ⟨2, ![1280, 1280]⟩
abbrev S50000x128 : Shape := ⟨2, ![50000, 128]⟩
abbrev S200x29x128 : Shape := ⟨3, ![200, 29, 128]⟩
abbrev S200x2304 : Shape := ⟨2, ![200, 2304]⟩
abbrev S200x128 : Shape := ⟨2, ![200, 128]⟩
abbrev S200x7x128 : Shape := ⟨3, ![200, 7, 128]⟩
abbrev S200x896 : Shape := ⟨2, ![200, 896]⟩
abbrev S200x1024 : Shape := ⟨2, ![200, 1024]⟩
abbrev S200x6x128 : Shape := ⟨3, ![200, 6, 128]⟩
abbrev S200x768 : Shape := ⟨2, ![200, 768]⟩
abbrev S200x1536 : Shape := ⟨2, ![200, 1536]⟩
abbrev S200x5x128 : Shape := ⟨3, ![200, 5, 128]⟩
abbrev S200x640 : Shape := ⟨2, ![200, 640]⟩
abbrev S200x1280 : Shape := ⟨2, ![200, 1280]⟩

abbrev nBuf : Space → Nat
  | .hbm => 31
  | .vmem => 12
  | .smem => 0
  | _ => 0

abbrev bufTy : (tb : Table) → Fin (tcTables nBuf tb) → BufTy
  | .hbm, ⟨0, _⟩ => ⟨S50000x29x128, .f32⟩
  | .hbm, ⟨1, _⟩ => ⟨S50000x2304, .f32⟩
  | .hbm, ⟨2, _⟩ => ⟨S1024x896, .f32⟩
  | .hbm, ⟨3, _⟩ => ⟨S1024, .f32⟩
  | .hbm, ⟨4, _⟩ => ⟨S768x768, .f32⟩
  | .hbm, ⟨5, _⟩ => ⟨S768x768, .f32⟩
  | .hbm, ⟨6, _⟩ => ⟨S640x640, .f32⟩
  | .hbm, ⟨7, _⟩ => ⟨S640x640, .f32⟩
  | .hbm, ⟨8, _⟩ => ⟨S896x1024, .f32⟩
  | .hbm, ⟨9, _⟩ => ⟨S896x1024, .bf16⟩
  | .hbm, ⟨10, _⟩ => ⟨S1x1024, .f32⟩
  | .hbm, ⟨11, _⟩ => ⟨S768x768, .f32⟩
  | .hbm, ⟨12, _⟩ => ⟨S768x768, .f32⟩
  | .hbm, ⟨13, _⟩ => ⟨S768x1536, .f32⟩
  | .hbm, ⟨14, _⟩ => ⟨S768x768, .f32⟩
  | .hbm, ⟨15, _⟩ => ⟨S768x768, .f32⟩
  | .hbm, ⟨16, _⟩ => ⟨S768x768, .f32⟩
  | .hbm, ⟨17, _⟩ => ⟨S768x1536, .f32⟩
  | .hbm, ⟨18, _⟩ => ⟨S1536x1536, .f32⟩
  | .hbm, ⟨19, _⟩ => ⟨S1536x1536, .bf16⟩
  | .hbm, ⟨20, _⟩ => ⟨S640x640, .f32⟩
  | .hbm, ⟨21, _⟩ => ⟨S640x640, .f32⟩
  | .hbm, ⟨22, _⟩ => ⟨S640x1280, .f32⟩
  | .hbm, ⟨23, _⟩ => ⟨S640x640, .f32⟩
  | .hbm, ⟨24, _⟩ => ⟨S640x640, .f32⟩
  | .hbm, ⟨25, _⟩ => ⟨S640x640, .f32⟩
  | .hbm, ⟨26, _⟩ => ⟨S640x1280, .f32⟩
  | .hbm, ⟨27, _⟩ => ⟨S1280x1280, .f32⟩
  | .hbm, ⟨28, _⟩ => ⟨S1280x1280, .bf16⟩
  | .hbm, ⟨29, _⟩ => ⟨S50000x29x128, .f32⟩
  | .hbm, ⟨30, _⟩ => ⟨S50000x128, .f32⟩
  | .local _ .vmem, ⟨0, _⟩ => ⟨S200x29x128, .f32⟩
  | .local _ .vmem, ⟨1, _⟩ => ⟨S200x29x128, .f32⟩
  | .local _ .vmem, ⟨2, _⟩ => ⟨S200x2304, .f32⟩
  | .local _ .vmem, ⟨3, _⟩ => ⟨S200x2304, .f32⟩
  | .local _ .vmem, ⟨4, _⟩ => ⟨S896x1024, .bf16⟩
  | .local _ .vmem, ⟨5, _⟩ => ⟨S1x1024, .f32⟩
  | .local _ .vmem, ⟨6, _⟩ => ⟨S1536x1536, .bf16⟩
  | .local _ .vmem, ⟨7, _⟩ => ⟨S1280x1280, .bf16⟩
  | .local _ .vmem, ⟨8, _⟩ => ⟨S200x29x128, .f32⟩
  | .local _ .vmem, ⟨9, _⟩ => ⟨S200x29x128, .f32⟩
  | .local _ .vmem, ⟨10, _⟩ => ⟨S200x128, .f32⟩
  | .local _ .vmem, ⟨11, _⟩ => ⟨S200x128, .f32⟩
  | _, _ => ⟨S50000x29x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x29x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x29x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x896_S896x1024_1_0 : S1024x896.Transposes [1, 0] S896x1024
  bitsLt_bf16_f32 : FTy.bits .bf16 < FTy.bits .f32
  shapeCasts_S1024_S1x1024 : S1024.ShapeCasts S1x1024
  transposes_S768x768_S768x768_1_0 : S768x768.Transposes [1, 0] S768x768
  concatenates_S768x768_S768x768_S768x1536_d1 : Shape.Concatenates [S768x768, S768x768] S768x1536 1
  concatenates_S768x1536_S768x1536_S1536x1536_d0 : Shape.Concatenates [S768x1536, S768x1536] S1536x1536 0
  transposes_S640x640_S640x640_1_0 : S640x640.Transposes [1, 0] S640x640
  concatenates_S640x640_S640x640_S640x1280_d1 : Shape.Concatenates [S640x640, S640x640] S640x1280 1
  concatenates_S640x1280_S640x1280_S1280x1280_d0 : Shape.Concatenates [S640x1280, S640x1280] S1280x1280 0
  inb_S200x29x128_S200x7x128_0_0_0 : ∀ a, (![0, 0, 0] : Fin 3 → Nat) a + S200x7x128.size a ≤ S200x29x128.size a
  h_S200x7x128 : 0 < S200x7x128.numel
  shapeCasts_S200x7x128_S200x896 : S200x7x128.ShapeCasts S200x896
  inb_S200x2304_S200x896_0_0 : ∀ a, (![0, 0] : Fin 2 → Nat) a + S200x896.size a ≤ S200x2304.size a
  h_S200x896 : 0 < S200x896.numel
  inb_S896x1024_S896x1024_0_0 : ∀ a, (![0, 0] : Fin 2 → Nat) a + S896x1024.size a ≤ S896x1024.size a
  h_S896x1024 : 0 < S896x1024.numel
  shapeCasts_S896x1024_S896x1024 : S896x1024.ShapeCasts S896x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S200x1024 : S1x1024.Broadcasts S200x1024
  slices_S200x1024_o0_0_S200x128 : S200x1024.Slices ![0, 0] S200x128
  inb_S200x128_S200x128_0_0 : ∀ a, (![0, 0] : Fin 2 → Nat) a + S200x128.size a ≤ S200x128.size a
  h_S200x128 : 0 < S200x128.numel
  slices_S200x1024_o0_128_S200x896 : S200x1024.Slices ![0, 128] S200x896
  shapeCasts_S200x896_S200x7x128 : S200x896.ShapeCasts S200x7x128
  inb_S200x29x128_S200x6x128_0_7_0 : ∀ a, (![0, 7, 0] : Fin 3 → Nat) a + S200x6x128.size a ≤ S200x29x128.size a
  h_S200x6x128 : 0 < S200x6x128.numel
  shapeCasts_S200x6x128_S200x768 : S200x6x128.ShapeCasts S200x768
  inb_S200x29x128_S200x6x128_0_13_0 : ∀ a, (![0, 13, 0] : Fin 3 → Nat) a + S200x6x128.size a ≤ S200x29x128.size a
  inb_S200x2304_S200x768_0_896 : ∀ a, (![0, 896] : Fin 2 → Nat) a + S200x768.size a ≤ S200x2304.size a
  h_S200x768 : 0 < S200x768.numel
  concatenates_S200x768_S200x768_S200x1536_d1 : Shape.Concatenates [S200x768, S200x768] S200x1536 1
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  slices_S200x1536_o0_0_S200x768 : S200x1536.Slices ![0, 0] S200x768
  shapeCasts_S200x768_S200x6x128 : S200x768.ShapeCasts S200x6x128
  slices_S200x1536_o0_768_S200x768 : S200x1536.Slices ![0, 768] S200x768
  inb_S200x29x128_S200x5x128_0_19_0 : ∀ a, (![0, 19, 0] : Fin 3 → Nat) a + S200x5x128.size a ≤ S200x29x128.size a
  h_S200x5x128 : 0 < S200x5x128.numel
  shapeCasts_S200x5x128_S200x640 : S200x5x128.ShapeCasts S200x640
  inb_S200x29x128_S200x5x128_0_24_0 : ∀ a, (![0, 24, 0] : Fin 3 → Nat) a + S200x5x128.size a ≤ S200x29x128.size a
  inb_S200x2304_S200x640_0_1664 : ∀ a, (![0, 1664] : Fin 2 → Nat) a + S200x640.size a ≤ S200x2304.size a
  h_S200x640 : 0 < S200x640.numel
  concatenates_S200x640_S200x640_S200x1280_d1 : Shape.Concatenates [S200x640, S200x640] S200x1280 1
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  slices_S200x1280_o0_0_S200x640 : S200x1280.Slices ![0, 0] S200x640
  shapeCasts_S200x640_S200x5x128 : S200x640.ShapeCasts S200x5x128
  slices_S200x1280_o0_640_S200x640 : S200x1280.Slices ![0, 640] S200x640
  concatenates_S200x7x128_S200x6x128_S200x6x128_S200x5x128_S200x5x128_S200x29x128_d1 : Shape.Concatenates [S200x7x128, S200x6x128, S200x6x128, S200x5x128, S200x5x128] S200x29x128 1
  inb_S200x29x128_S200x29x128_0_0_0 : ∀ a, (![0, 0, 0] : Fin 3 → Nat) a + S200x29x128.size a ≤ S200x29x128.size a
  h_S200x29x128 : 0 < S200x29x128.numel
  dot_S200x896_S896x1024_S200x1024_1_0_0_1_n_n_wf : DotDims.WF S200x896 S896x1024 S200x1024 [1] [0] [0] [1] [] []
  dot_S200x1536_S1536x1536_S200x1536_1_0_0_1_n_n_wf : DotDims.WF S200x1536 S1536x1536 S200x1536 [1] [0] [0] [1] [] []
  dot_S200x1280_S1280x1280_S200x1280_1_0_0_1_n_n_wf : DotDims.WF S200x1280 S1280x1280 S200x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x29x128.size a ≤ S50000x29x128.size a
  hwx0_0 : ∀ i : grid0.Coords, EltTy.bits .f32 = 32 ∨ (Rect.block (s := S50000x29x128) S200x29x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x2304.size a ≤ S50000x2304.size a
  hwx0_1 : ∀ i : grid0.Coords, EltTy.bits .f32 = 32 ∨ (Rect.block (s := S50000x2304) S200x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x1024.size a ≤ S896x1024.size a
  hwx0_2 : ∀ i : grid0.Coords, EltTy.bits .bf16 = 32 ∨ (Rect.block (s := S896x1024) S896x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x1536.size a ≤ S1536x1536.size a
  hwx0_4 : ∀ i : grid0.Coords, EltTy.bits .bf16 = 32 ∨ (Rect.block (s := S1536x1536) S1536x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1280x1280.size a ≤ S1280x1280.size a
  hwx0_5 : ∀ i : grid0.Coords, EltTy.bits .bf16 = 32 ∨ (Rect.block (s := S1280x1280) S1280x1280.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x29x128.size a ≤ S50000x29x128.size a
  hwx0_6 : ∀ i : grid0.Coords, EltTy.bits .f32 = 32 ∨ (Rect.block (s := S50000x29x128) S200x29x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x128.size a ≤ S50000x128.size a
  hwx0_7 : ∀ i : grid0.Coords, EltTy.bits .f32 = 32 ∨ (Rect.block (s := S50000x128) S200x128.size (cc0_transform_7 i) (hinb0_7 i)).WholeWords (EltTy.packing .f32)

variable [Facts₀]

def dot_S200x896_S896x1024_S200x1024_1_0_0_1_n_n : DotDims S200x896 S896x1024 S200x1024 where
  lhsContracting := [1]
  rhsContracting := [0]
  lhsNonContracting := [0]
  rhsNonContracting := [1]
  lhsBatch := []
  rhsBatch := []
  wf := dot_S200x896_S896x1024_S200x1024_1_0_0_1_n_n_wf
def dot_S200x1536_S1536x1536_S200x1536_1_0_0_1_n_n : DotDims S200x1536 S1536x1536 S200x1536 where
  lhsContracting := [1]
  rhsContracting := [0]
  lhsNonContracting := [0]
  rhsNonContracting := [1]
  lhsBatch := []
  rhsBatch := []
  wf := dot_S200x1536_S1536x1536_S200x1536_1_0_0_1_n_n_wf
def dot_S200x1280_S1280x1280_S200x1280_1_0_0_1_n_n : DotDims S200x1280 S1280x1280 S200x1280 where
  lhsContracting := [1]
  rhsContracting := [0]
  lhsNonContracting := [0]
  rhsNonContracting := [1]
  lhsBatch := []
  rhsBatch := []
  wf := dot_S200x1280_S1280x1280_S200x1280_1_0_0_1_n_n_wf

abbrev win0_0 : Pipeline.Window sig grid0 :=
  Pipeline.Window.ofSpec (Memref.whole main_arg0) S200x29x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S896x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1536x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1280x1280.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S200x29x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x29x128 : Shape := ⟨3, ![50000, 29, 128]⟩
abbrev S50000x2304 : Shape := ⟨2, ![50000, 2304]⟩
abbrev S1024x896 : Shape := ⟨2, ![1024, 896]⟩
abbrev S1024 : Shape := ⟨1, ![1024]⟩
abbrev S768x768 : Shape := ⟨2, ![768, 768]⟩
abbrev S640x640 : Shape := ⟨2, ![640, 640]⟩
abbrev S50000x7x128 : Shape := ⟨3, ![50000, 7, 128]⟩
abbrev S50000x896 : Shape := ⟨2, ![50000, 896]⟩
abbrev S50000x12x128 : Shape := ⟨3, ![50000, 12, 128]⟩
abbrev S50000x2x768 : Shape := ⟨3, ![50000, 2, 768]⟩
abbrev S50000x10x128 : Shape := ⟨3, ![50000, 10, 128]⟩
abbrev S50000x2x640 : Shape := ⟨3, ![50000, 2, 640]⟩
abbrev S50000x768 : Shape := ⟨2, ![50000, 768]⟩
abbrev S50000x640 : Shape := ⟨2, ![50000, 640]⟩
abbrev S896x1024 : Shape := ⟨2, ![896, 1024]⟩
abbrev S50000x1024 : Shape := ⟨2, ![50000, 1024]⟩
abbrev S1x1024 : Shape := ⟨2, ![1, 1024]⟩
abbrev S50000x128 : Shape := ⟨2, ![50000, 128]⟩
abbrev S50000x1x768 : Shape := ⟨3, ![50000, 1, 768]⟩
abbrev S50000x1536 : Shape := ⟨2, ![50000, 1536]⟩
abbrev S768x1536 : Shape := ⟨2, ![768, 1536]⟩
abbrev S1536x1536 : Shape := ⟨2, ![1536, 1536]⟩
abbrev S50000x2x6x128 : Shape := ⟨4, ![50000, 2, 6, 128]⟩
abbrev S50000x1x6x128 : Shape := ⟨4, ![50000, 1, 6, 128]⟩
abbrev S50000x6x128 : Shape := ⟨3, ![50000, 6, 128]⟩
abbrev S50000x1x640 : Shape := ⟨3, ![50000, 1, 640]⟩
abbrev S50000x1280 : Shape := ⟨2, ![50000, 1280]⟩
abbrev S640x1280 : Shape := ⟨2, ![640, 1280]⟩
abbrev S1280x1280 : Shape := ⟨2, ![1280, 1280]⟩
abbrev S50000x2x5x128 : Shape := ⟨4, ![50000, 2, 5, 128]⟩
abbrev S50000x1x5x128 : Shape := ⟨4, ![50000, 1, 5, 128]⟩
abbrev S50000x5x128 : Shape := ⟨3, ![50000, 5, 128]⟩

abbrev nBuf : Space → Nat
  | .hbm => 57
  | .vmem => 0
  | .smem => 0
  | _ => 0

abbrev bufTy : (tb : Table) → Fin (tcTables nBuf tb) → BufTy
  | .hbm, ⟨0, _⟩ => ⟨S50000x29x128, .f32⟩
  | .hbm, ⟨1, _⟩ => ⟨S50000x2304, .f32⟩
  | .hbm, ⟨2, _⟩ => ⟨S1024x896, .f32⟩
  | .hbm, ⟨3, _⟩ => ⟨S1024, .f32⟩
  | .hbm, ⟨4, _⟩ => ⟨S768x768, .f32⟩
  | .hbm, ⟨5, _⟩ => ⟨S768x768, .f32⟩
  | .hbm, ⟨6, _⟩ => ⟨S640x640, .f32⟩
  | .hbm, ⟨7, _⟩ => ⟨S640x640, .f32⟩
  | .hbm, ⟨8, _⟩ => ⟨S50000x7x128, .f32⟩
  | .hbm, ⟨9, _⟩ => ⟨S50000x896, .f32⟩
  | .hbm, ⟨10, _⟩ => ⟨S50000x12x128, .f32⟩
  | .hbm, ⟨11, _⟩ => ⟨S50000x2x768, .f32⟩
  | .hbm, ⟨12, _⟩ => ⟨S50000x10x128, .f32⟩
  | .hbm, ⟨13, _⟩ => ⟨S50000x2x640, .f32⟩
  | .hbm, ⟨14, _⟩ => ⟨S50000x896, .f32⟩
  | .hbm, ⟨15, _⟩ => ⟨S50000x768, .f32⟩
  | .hbm, ⟨16, _⟩ => ⟨S50000x640, .f32⟩
  | .hbm, ⟨17, _⟩ => ⟨S50000x896, .f32⟩
  | .hbm, ⟨18, _⟩ => ⟨S896x1024, .f32⟩
  | .hbm, ⟨19, _⟩ => ⟨S50000x1024, .f32⟩
  | .hbm, ⟨20, _⟩ => ⟨S1x1024, .f32⟩
  | .hbm, ⟨21, _⟩ => ⟨S50000x1024, .f32⟩
  | .hbm, ⟨22, _⟩ => ⟨S50000x1024, .f32⟩
  | .hbm, ⟨23, _⟩ => ⟨S50000x128, .f32⟩
  | .hbm, ⟨24, _⟩ => ⟨S50000x896, .f32⟩
  | .hbm, ⟨25, _⟩ => ⟨S50000x7x128, .f32⟩
  | .hbm, ⟨26, _⟩ => ⟨S50000x1x768, .f32⟩
  | .hbm, ⟨27, _⟩ => ⟨S50000x2x768, .f32⟩
  | .hbm, ⟨28, _⟩ => ⟨S50000x2x768, .f32⟩
  | .hbm, ⟨29, _⟩ => ⟨S50000x1536, .f32⟩
  | .hbm, ⟨30, _⟩ => ⟨S768x768, .f32⟩
  | .hbm, ⟨31, _⟩ => ⟨S768x1536, .f32⟩
  | .hbm, ⟨32, _⟩ => ⟨S768x1536, .f32⟩
  | .hbm, ⟨33, _⟩ => ⟨S1536x1536, .f32⟩
  | .hbm, ⟨34, _⟩ => ⟨S1536x1536, .f32⟩
  | .hbm, ⟨35, _⟩ => ⟨S50000x1536, .f32⟩
  | .hbm, ⟨36, _⟩ => ⟨S50000x2x6x128, .f32⟩
  | .hbm, ⟨37, _⟩ => ⟨S50000x1x6x128, .f32⟩
  | .hbm, ⟨38, _⟩ => ⟨S50000x6x128, .f32⟩
  | .hbm, ⟨39, _⟩ => ⟨S50000x1x6x128, .f32⟩
  | .hbm, ⟨40, _⟩ => ⟨S50000x6x128, .f32⟩
  | .hbm, ⟨41, _⟩ => ⟨S50000x1x640, .f32⟩
  | .hbm, ⟨42, _⟩ => ⟨S50000x2x640, .f32⟩
  | .hbm, ⟨43, _⟩ => ⟨S50000x2x640, .f32⟩
  | .hbm, ⟨44, _⟩ => ⟨S50000x1280, .f32⟩
  | .hbm, ⟨45, _⟩ => ⟨S640x640, .f32⟩
  | .hbm, ⟨46, _⟩ => ⟨S640x1280, .f32⟩
  | .hbm, ⟨47, _⟩ => ⟨S640x1280, .f32⟩
  | .hbm, ⟨48, _⟩ => ⟨S1280x1280, .f32⟩
  | .hbm, ⟨49, _⟩ => ⟨S1280x1280, .f32⟩
  | .hbm, ⟨50, _⟩ => ⟨S50000x1280, .f32⟩
  | .hbm, ⟨51, _⟩ => ⟨S50000x2x5x128, .f32⟩
  | .hbm, ⟨52, _⟩ => ⟨S50000x1x5x128, .f32⟩
  | .hbm, ⟨53, _⟩ => ⟨S50000x5x128, .f32⟩
  | .hbm, ⟨54, _⟩ => ⟨S50000x1x5x128, .f32⟩
  | .hbm, ⟨55, _⟩ => ⟨S50000x5x128, .f32⟩
  | .hbm, ⟨56, _⟩ => ⟨S50000x29x128, .f32⟩
  | _, _ => ⟨S50000x29x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩

abbrev nD : Nat := 1
abbrev τ : Topo := Topo.v7x

variable {F : FTy → Type} [FloatOps F]

class Facts₀ : Prop where
  slices_S50000x29x128_S50000x7x128_0_0_0 : S50000x29x128.Slices ![0, 0, 0] S50000x7x128
  shapeCasts_S50000x7x128_S50000x896 : S50000x7x128.ShapeCasts S50000x896
  slices_S50000x29x128_S50000x12x128_0_7_0 : S50000x29x128.Slices ![0, 7, 0] S50000x12x128
  shapeCasts_S50000x12x128_S50000x2x768 : S50000x12x128.ShapeCasts S50000x2x768
  slices_S50000x29x128_S50000x10x128_0_19_0 : S50000x29x128.Slices ![0, 19, 0] S50000x10x128
  shapeCasts_S50000x10x128_S50000x2x640 : S50000x10x128.ShapeCasts S50000x2x640
  slices_S50000x2304_S50000x896_0_0 : S50000x2304.Slices ![0, 0] S50000x896
  slices_S50000x2304_S50000x768_0_896 : S50000x2304.Slices ![0, 896] S50000x768
  slices_S50000x2304_S50000x640_0_1664 : S50000x2304.Slices ![0, 1664] S50000x640
  transposes_S1024x896_S896x1024_1_0 : S1024x896.Transposes [1, 0] S896x1024
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  slices_S50000x1024_S50000x128_0_0 : S50000x1024.Slices ![0, 0] S50000x128
  slices_S50000x1024_S50000x896_0_128 : S50000x1024.Slices ![0, 128] S50000x896
  shapeCasts_S50000x896_S50000x7x128 : S50000x896.ShapeCasts S50000x7x128
  bcast_S50000x768_S50000x1x768_0_2 : S50000x768.BroadcastsInDim S50000x1x768 (![0, 2] : Fin 2 → Fin S50000x1x768.rank)
  bcast_S50000x1x768_S50000x2x768_0_1_2 : S50000x1x768.BroadcastsInDim S50000x2x768 (![0, 1, 2] : Fin 3 → Fin S50000x2x768.rank)
  shapeCasts_S50000x2x768_S50000x1536 : S50000x2x768.ShapeCasts S50000x1536
  concatenates_S768x768_S768x768_S768x1536_d1 : Shape.Concatenates [S768x768, S768x768] S768x1536 1
  concatenates_S768x1536_S768x1536_S1536x1536_d0 : Shape.Concatenates [S768x1536, S768x1536] S1536x1536 0
  transposes_S1536x1536_S1536x1536_1_0 : S1536x1536.Transposes [1, 0] S1536x1536
  shapeCasts_S50000x1536_S50000x2x6x128 : S50000x1536.ShapeCasts S50000x2x6x128
  slices_S50000x2x6x128_S50000x1x6x128_0_0_0_0 : S50000x2x6x128.Slices ![0, 0, 0, 0] S50000x1x6x128
  shapeCasts_S50000x1x6x128_S50000x6x128 : S50000x1x6x128.ShapeCasts S50000x6x128
  slices_S50000x2x6x128_S50000x1x6x128_0_1_0_0 : S50000x2x6x128.Slices ![0, 1, 0, 0] S50000x1x6x128
  bcast_S50000x640_S50000x1x640_0_2 : S50000x640.BroadcastsInDim S50000x1x640 (![0, 2] : Fin 2 → Fin S50000x1x640.rank)
  bcast_S50000x1x640_S50000x2x640_0_1_2 : S50000x1x640.BroadcastsInDim S50000x2x640 (![0, 1, 2] : Fin 3 → Fin S50000x2x640.rank)
  shapeCasts_S50000x2x640_S50000x1280 : S50000x2x640.ShapeCasts S50000x1280
  concatenates_S640x640_S640x640_S640x1280_d1 : Shape.Concatenates [S640x640, S640x640] S640x1280 1
  concatenates_S640x1280_S640x1280_S1280x1280_d0 : Shape.Concatenates [S640x1280, S640x1280] S1280x1280 0
  transposes_S1280x1280_S1280x1280_1_0 : S1280x1280.Transposes [1, 0] S1280x1280
  shapeCasts_S50000x1280_S50000x2x5x128 : S50000x1280.ShapeCasts S50000x2x5x128
  slices_S50000x2x5x128_S50000x1x5x128_0_0_0_0 : S50000x2x5x128.Slices ![0, 0, 0, 0] S50000x1x5x128
  shapeCasts_S50000x1x5x128_S50000x5x128 : S50000x1x5x128.ShapeCasts S50000x5x128
  slices_S50000x2x5x128_S50000x1x5x128_0_1_0_0 : S50000x2x5x128.Slices ![0, 1, 0, 0] S50000x1x5x128
  concatenates_S50000x7x128_S50000x6x128_S50000x6x128_S50000x5x128_S50000x5x128_S50000x29x128_d1 : Shape.Concatenates [S50000x7x128, S50000x6x128, S50000x6x128, S50000x5x128, S50000x5x128] S50000x29x128 1
  dot_S50000x896_S896x1024_S50000x1024_1_0_0_1_n_n_wf : DotDims.WF S50000x896 S896x1024 S50000x1024 [1] [0] [0] [1] [] []
  dot_S50000x1536_S1536x1536_S50000x1536_1_0_0_1_n_n_wf : DotDims.WF S50000x1536 S1536x1536 S50000x1536 [1] [0] [0] [1] [] []
  dot_S50000x1280_S1280x1280_S50000x1280_1_0_0_1_n_n_wf : DotDims.WF S50000x1280 S1280x1280 S50000x1280 [1] [0] [0] [1] [] []

variable [Facts₀]

def dot_S50000x896_S896x1024_S50000x1024_1_0_0_1_n_n : DotDims S50000x896 S896x1024 S50000x1024 where
  lhsContracting := [1]
  rhsContracting := [0]
  lhsNonContracting := [0]
  rhsNonContracting := [1]
  lhsBatch := []
  rhsBatch := []
  wf := dot_S50000x896_S896x1024_S50000x1024_1_0_0_1_n_n_wf
def dot_S50000x1536_S1536x1536_S50000x1536_1_0_0_1_n_n : DotDims S50000x1536 S1536x1536 S50000x1536 where
  lhsContracting := [1]
  rhsContracting := [0]
  lhsNonContracting := [0]
  rhsNonContracting := [1]
  lhsBatch := []
  rhsBatch := []
  wf := dot_S50000x1536_S1536x1536_S50000x1536_1_0_0_1_n_n_wf
def dot_S50000x1280_S1280x1280_S50000x1280_1_0_0_1_n_n : DotDims S50000x1280 S1280x1280 S50000x1280 where
  lhsContracting := [1]
  rhsContracting := [0]
  lhsNonContracting := [0]
  rhsNonContracting := [1]
  lhsBatch := []
  rhsBatch := []
  wf := dot_S50000x1280_S1280x1280_S50000x1280_1_0_0_1_n_n_wf

class Facts : Prop extends Facts₀ where

variable [Facts]
-- ==== Proof.Spec.lean ====
/-
  The specification: what both programs compute, element by element, over the extended reals.

  Inputs: x [50000, 29, 128] (per edge 29 coefficient rows of 128 channels), xe [50000, 2304] (the radial
  embedding: 896 + 768 + 640 columns), w0 [1024, 896] with bias b [1024], and for m = 1, 2 two square matrices
  (w1, w2) of side h = 768, 640.

  m = 0. The first 7 coefficient rows of an edge, flattened to 896 numbers, are gated by the first 896 columns of
  xe and sent through the affine map: H0 e n = sum_k x[e, k / 128, k % 128] xe[e, k] w0[n, k] + b[n]. Its first
  128 entries are the gate output; entries 128 + 128 l + c are rows l < 7 of the main output.

  m > 0. The next 2 (h / 128) rows (real rows then imaginary rows), flattened to 2 h numbers, are gated by h
  columns of xe (the same h columns for the real and the imaginary half) and multiplied by the transposed block
  matrix [[w1, -w2], [w2, w1]]: entry (k, n) of the transpose is w1[n, k], w2[n - h, k], -w2[n, k - h] or
  w1[n - h, k - h] according to the halves k and n lie in. The 2 h results are rows of the main output.

  Arrays are read at natural-number coordinates (zero outside the array), so that every index computation in the
  proofs is plain arithmetic on naturals.
-/
import Idealize.ShloMosaic.PureOps.Ideal
import Idealize.ShloMosaic.Lib.ValueIdx

noncomputable section

open scoped BigOperators

namespace Cert.So2Spec

open Idealize.ShloMosaic Idealize.ShloMosaic.ValueIdx

/-! ## Arrays read at natural coordinates -/

/-- Entry a of a vector, zero outside it. -/
def at1 {n0 : Nat} (x : (⟨1, ![n0]⟩ : Shape).Idx → EReal) (a : Nat) : EReal :=
  if h : a < n0 then x (ix1 ⟨a, h⟩) else 0

/-- Entry (a, b) of a matrix, zero outside it. -/
def at2 {n0 n1 : Nat} (x : (⟨2, ![n0, n1]⟩ : Shape).Idx → EReal) (a b : Nat) : EReal :=
  if h : a < n0 ∧ b < n1 then x (ix2 ⟨a, h.1⟩ ⟨b, h.2⟩) else 0

/-- Entry (a, b, c) of a rank-3 array, zero outside it. -/
def at3 {n0 n1 n2 : Nat} (x : (⟨3, ![n0, n1, n2]⟩ : Shape).Idx → EReal) (a b c : Nat) : EReal :=
  if h : a < n0 ∧ b < n1 ∧ c < n2 then x (ix3 ⟨a, h.1⟩ ⟨b, h.2.1⟩ ⟨c, h.2.2⟩) else 0

theorem at1_ix {n0 : Nat} (x : (⟨1, ![n0]⟩ : Shape).Idx → EReal) (p : Fin n0) (a : Nat) (ha : p.val = a) :
    x (ix1 p) = at1 x a := by
  subst ha
  unfold at1
  rw [dif_pos p.isLt]

theorem at2_ix {n0 n1 : Nat} (x : (⟨2, ![n0, n1]⟩ : Shape).Idx → EReal) (p : Fin n0) (q : Fin n1) (a b : Nat)
    (ha : p.val = a) (hb : q.val = b) : x (ix2 p q) = at2 x a b := by
  subst ha; subst hb
  unfold at2
  rw [dif_pos ⟨p.isLt, q.isLt⟩]

theorem at3_ix {n0 n1 n2 : Nat} (x : (⟨3, ![n0, n1, n2]⟩ : Shape).Idx → EReal) (p : Fin n0) (q : Fin n1) (r : Fin n2)
    (a b c : Nat) (ha : p.val = a) (hb : q.val = b) (hc : r.val = c) : x (ix3 p q r) = at3 x a b c := by
  subst ha; subst hb; subst hc
  unfold at3
  rw [dif_pos ⟨p.isLt, q.isLt, r.isLt⟩]

/-- A vector at any index whose coordinate is a. -/
theorem at1_of {n0 : Nat} (x : (⟨1, ![n0]⟩ : Shape).Idx → EReal) (i : (⟨1, ![n0]⟩ : Shape).Idx) (a : Nat)
    (h0 : (i 0).val = a) : x i = at1 x a :=
  (congrArg x (eq_ix1 i)).trans (at1_ix x (i 0) a h0)

/-- A matrix at any index whose coordinates are (a, b). -/
theorem at2_of {n0 n1 : Nat} (x : (⟨2, ![n0, n1]⟩ : Shape).Idx → EReal) (i : (⟨2, ![n0, n1]⟩ : Shape).Idx) (a b : Nat)
    (h0 : (i 0).val = a) (h1 : (i 1).val = b) : x i = at2 x a b :=
  (congrArg x (eq_ix2 i)).trans (at2_ix x (i 0) (i 1) a b h0 h1)

/-- A rank-3 array at any index whose coordinates are (a, b, c). -/
theorem at3_of {n0 n1 n2 : Nat} (x : (⟨3, ![n0, n1, n2]⟩ : Shape).Idx → EReal) (i : (⟨3, ![n0, n1, n2]⟩ : Shape).Idx)
    (a b c : Nat) (h0 : (i 0).val = a) (h1 : (i 1).val = b) (h2 : (i 2).val = c) : x i = at3 x a b c :=
  (congrArg x (eq_ix3 i)).trans (at3_ix x (i 0) (i 1) (i 2) a b c h0 h1 h2)

/-! ## The shapes -/

abbrev SX : Shape := ⟨3, ![50000, 29, 128]⟩
abbrev SXE : Shape := ⟨2, ![50000, 2304]⟩
abbrev SW0 : Shape := ⟨2, ![1024, 896]⟩
abbrev SB : Shape := ⟨1, ![1024]⟩
abbrev SW1 : Shape := ⟨2, ![768, 768]⟩
abbrev SW2 : Shape := ⟨2, ![640, 640]⟩
abbrev SGate : Shape := ⟨2, ![50000, 128]⟩

/-! ## m = 0 -/

/-- The gated input of edge e at flat position k < 896 of the first 7 coefficient rows. -/
def gated0 (x : SX.Idx → EReal) (xe : SXE.Idx → EReal) (e k : Nat) : EReal :=
  at3 x e (k / 128) (k % 128) * at2 xe e k

/-- The affine map's output n of edge e. -/
def H0 (x : SX.Idx → EReal) (xe : SXE.Idx → EReal) (w0 : SW0.Idx → EReal) (b : SB.Idx → EReal) (e n : Nat) : EReal :=
  (∑ k : Fin 896, gated0 x xe e k.val * at2 w0 n k.val) + at1 b n

/-! ## m > 0: the gated rows and the block matrix, for a half-width h -/

/-- The gated input of edge e at flat position k < 2 h: coefficient rows r0, r0 + 1, … flattened, times the h
    columns of xe from column c0 on, the same h columns for both halves. -/
def gatedM (r0 c0 h : Nat) (x : SX.Idx → EReal) (xe : SXE.Idx → EReal) (e k : Nat) : EReal :=
  at3 x e (r0 + k / 128) (k % 128) * at2 xe e (c0 + k % h)

/-- Entry (k, n) of the transpose of [[w1, -w2], [w2, w1]], the blocks square of side h. -/
def blockT {h : Nat} (w1 w2 : (⟨2, ![h, h]⟩ : Shape).Idx → EReal) (k n : Nat) : EReal :=
  if k < h then (if n < h then at2 w1 n k else at2 w2 (n - h) k)
  else (if n < h then -(at2 w2 n (k - h)) else at2 w1 (n - h) (k - h))

/-- Output n < 2 h of edge e for m = 1: rows 7 … 18, columns 896 … 1663, side 768. -/
def O1 (x : SX.Idx → EReal) (xe : SXE.Idx → EReal) (w1 w2 : SW1.Idx → EReal) (e n : Nat) : EReal :=
  ∑ k : Fin 1536, gatedM 7 896 768 x xe e k.val * blockT w1 w2 k.val n

/-- Output n < 2 h of edge e for m = 2: rows 19 … 28, columns 1664 … 2303, side 640. -/
def O2 (x : SX.Idx → EReal) (xe : SXE.Idx → EReal) (w1 w2 : SW2.Idx → EReal) (e n : Nat) : EReal :=
  ∑ k : Fin 1280, gatedM 19 1664 640 x xe e k.val * blockT w1 w2 k.val n

/-! ## The two results -/

/-- Row l, channel c of edge e of the main output: rows 0 … 6 from m = 0 (past its 128 gate entries), rows
    7 … 18 the 1536 outputs of m = 1, rows 19 … 28 the 1280 outputs of m = 2. -/
def outAt (x : SX.Idx → EReal) (xe : SXE.Idx → EReal) (w0 : SW0.Idx → EReal) (b : SB.Idx → EReal)
    (w11 w21 : SW1.Idx → EReal) (w12 w22 : SW2.Idx → EReal) (e l c : Nat) : EReal :=
  if l < 7 then H0 x xe w0 b e (128 + 128 * l + c)
  else if l < 19 then O1 x xe w11 w21 e (128 * (l - 7) + c)
  else O2 x xe w12 w22 e (128 * (l - 19) + c)

/-- The main output [50000, 29, 128]. -/
def Gout (x : SX.Idx → EReal) (xe : SXE.Idx → EReal) (w0 : SW0.Idx → EReal) (b : SB.Idx → EReal)
    (w11 w21 : SW1.Idx → EReal) (w12 w22 : SW2.Idx → EReal) : SX.Idx → EReal :=
  fun i => outAt x xe w0 b w11 w21 w12 w22 (i 0).val (i 1).val (i 2).val

/-- The gate output [50000, 128]. -/
def Ggate (x : SX.Idx → EReal) (xe : SXE.Idx → EReal) (w0 : SW0.Idx → EReal) (b : SB.Idx → EReal) : SGate.Idx → EReal :=
  fun i => H0 x xe w0 b (i 0).val (i 1).val

end Cert.So2Spec

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.KerPay0.lean ====
/-
  The kernel body's m = 0 values, read at one entry of a block of 200 edges.

  The body loads the block's first 7 coefficient rows (P0), the first 896 columns of the block of xe (P1), the
  transposed weights (P2) and the bias row (P3). If the loaded pieces hold the arrays' entries for edges E … E + 199,
  then entry (r, n) of (P0 flattened · P1) P2 + P3 is the specification's H0 (E + r) n; its first 128 columns are what
  the body stores to the gate block, and the other 896, as [200, 7, 128], are the first 7 rows of the output block.
-/
import proofs.«144432_j48782238548458_1_alg».proof.Proof.Spec
import proofs.«144432_j48782238548458_1_alg».proof.Proof.Gen.KernelIdeal.Skeleton
import proofs.«144432_j48782238548458_1_alg».proof.Proof.LibBlocks
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.So2KerPay0

open Idealize.ShloMosaic Idealize.ShloMosaic.TcCoe Idealize.ShloMosaic.ValueIdx Cert.So2Spec
open Cert.KernelIdeal Cert.KernelIdeal.Gen

/-- Entry (r, n) of the affine map on the block. -/
theorem pay2_at (P0 : Vec Ideal S200x7x128 .f32) (P1 : Vec Ideal S200x896 .f32) (P2 : Vec Ideal S896x1024 .bf16) (P3 : Vec Ideal S1x1024 .f32)
    (x : SX.Idx → EReal) (xe : SXE.Idx → EReal) (w0 : SW0.Idx → EReal) (b : SB.Idx → EReal) (E : Nat)
    (h0 : ∀ (r : Fin 200) (l : Fin 7) (c : Fin 128), P0 (ix3 r l c) = at3 x (E + r.val) l.val c.val)
    (h1 : ∀ (r : Fin 200) (k : Fin 896), P1 (ix2 r k) = at2 xe (E + r.val) k.val)
    (h2 : ∀ (k : Fin 896) (n : Fin 1024), P2 (ix2 k n) = at2 w0 n.val k.val)
    (h3 : ∀ n : Fin 1024, P3 (ix2 (0 : Fin 1) n) = at1 b n.val)
    (r : Fin 200) (n : Fin 1024) :
    k0_pay2 (F := Ideal) P0 P1 P2 P3 (ix2 r n) = H0 x xe w0 b (E + r.val) n.val := by
  unfold k0_pay2 H0
  refine (addf_apply _ _ _).trans ?_
  refine congrArg₂ (· + ·) ?_ ?_
  · -- the product: entry (r, n) is the sum over k of the gated input times the weight
    rw [shapeCast_self]
    show FloatOps.matmul _ none _ _ _ _ = _
    refine (Cert.LibBlocks.matmul_plain_apply (M := 200) (K := 896) (N := 1024) (φ₁ := .bf16) (φ₂ := .bf16)
      dot_S200x896_S896x1024_S200x1024_1_0_0_1_n_n rfl none _ _ r n).trans ?_
    refine Finset.sum_congr rfl fun k _ => ?_
    rw [truncf_apply, mulf_apply, h2, h1,
      shapeCast_apply P0 shapeCasts_S200x7x128_S200x896 (ix2 r k)
        (ix3 r ⟨k.val / 128, by have := k.isLt; omega⟩ ⟨k.val % 128, Nat.mod_lt _ (by omega)⟩) (by
          rw [Shape.rowMajor_val_three, Shape.rowMajor_val_two]
          show (r.val * 7 + k.val / 128) * 128 + k.val % 128 = r.val * 896 + k.val
          omega),
      h0]
    rfl
  · -- the bias row, the same for every r
    rw [shapeCast_self,
      broadcastTo_apply P3 broadcasts_S1x1024_S200x1024 (ix2 r n) (ix2 (0 : Fin 1) n) (fun a => by
        match a with
        | ⟨0, _⟩ => rfl
        | ⟨1, _⟩ => rfl),
      h3]

/-- The gate block: its entry (r, n) is output n < 128. -/
theorem pay3_at (P0 : Vec Ideal S200x7x128 .f32) (P1 : Vec Ideal S200x896 .f32) (P2 : Vec Ideal S896x1024 .bf16) (P3 : Vec Ideal S1x1024 .f32)
    (x : SX.Idx → EReal) (xe : SXE.Idx → EReal) (w0 : SW0.Idx → EReal) (b : SB.Idx → EReal) (E : Nat)
    (h0 : ∀ (r : Fin 200) (l : Fin 7) (c : Fin 128), P0 (ix3 r l c) = at3 x (E + r.val) l.val c.val)
    (h1 : ∀ (r : Fin 200) (k : Fin 896), P1 (ix2 r k) = at2 xe (E + r.val) k.val)
    (h2 : ∀ (k : Fin 896) (n : Fin 1024), P2 (ix2 k n) = at2 w0 n.val k.val)
    (h3 : ∀ n : Fin 1024, P3 (ix2 (0 : Fin 1) n) = at1 b n.val)
    (r : Fin 200) (n : Fin 128) :
    k0_pay3 (F := Ideal) P0 P1 P2 P3 (ix2 r n) = H0 x xe w0 b (E + r.val) n.val := by
  have hn := n.isLt
  unfold k0_pay3
  -- the slice at (r, n) reads the affine map's entry (r, n)
  refine (extractStridedSlice_apply ![0, 0] _ slices_S200x1024_o0_0_S200x128 (ix2 r n)
    (ix2 r (⟨n.val, by omega⟩ : Fin 1024)) (fun a => by
      match a with
      | ⟨0, _⟩ => show r.val = 0 + r.val; omega
      | ⟨1, _⟩ => show n.val = 0 + n.val; omega)).trans ?_
  exact pay2_at P0 P1 P2 P3 x xe w0 b E h0 h1 h2 h3 r ⟨n.val, by omega⟩

/-- The first 7 rows of the output block: row l, channel c is output 128 + 128 l + c. -/
theorem pay4_at (P0 : Vec Ideal S200x7x128 .f32) (P1 : Vec Ideal S200x896 .f32) (P2 : Vec Ideal S896x1024 .bf16) (P3 : Vec Ideal S1x1024 .f32)
    (x : SX.Idx → EReal) (xe : SXE.Idx → EReal) (w0 : SW0.Idx → EReal) (b : SB.Idx → EReal) (E : Nat)
    (h0 : ∀ (r : Fin 200) (l : Fin 7) (c : Fin 128), P0 (ix3 r l c) = at3 x (E + r.val) l.val c.val)
    (h1 : ∀ (r : Fin 200) (k : Fin 896), P1 (ix2 r k) = at2 xe (E + r.val) k.val)
    (h2 : ∀ (k : Fin 896) (n : Fin 1024), P2 (ix2 k n) = at2 w0 n.val k.val)
    (h3 : ∀ n : Fin 1024, P3 (ix2 (0 : Fin 1) n) = at1 b n.val)
    (r : Fin 200) (l : Fin 7) (c : Fin 128) :
    k0_pay4 (F := Ideal) P0 P1 P2 P3 (ix3 r l c) = H0 x xe w0 b (E + r.val) (128 + 128 * l.val + c.val) := by
  have hl := l.isLt
  have hc := c.isLt
  unfold k0_pay4
  -- (r, l, c) of [200, 7, 128] and (r, 128 l + c) of [200, 896] have the same row-major position
  refine (shapeCast_apply _ shapeCasts_S200x896_S200x7x128 (ix3 r l c)
    (ix2 r (⟨128 * l.val + c.val, by omega⟩ : Fin 896)) (by
      rw [Shape.rowMajor_val_three, Shape.rowMajor_val_two]
      show r.val * 896 + (128 * l.val + c.val) = (r.val * 7 + l.val) * 128 + c.val
      omega)).trans ?_
  -- the slice from column 128 on
  refine (extractStridedSlice_apply ![0, 128] _ slices_S200x1024_o0_128_S200x896
    (ix2 r (⟨128 * l.val + c.val, by omega⟩ : Fin 896))
    (ix2 r (⟨128 + 128 * l.val + c.val, by omega⟩ : Fin 1024)) (fun a => by
      match a with
      | ⟨0, _⟩ => show r.val = 0 + r.val; omega
      | ⟨1, _⟩ => show 128 + 128 * l.val + c.val = 128 + (128 * l.val + c.val); omega)).trans ?_
  exact pay2_at P0 P1 P2 P3 x xe w0 b E h0 h1 h2 h3 r ⟨128 + 128 * l.val + c.val, by omega⟩

end Cert.So2KerPay0

end
-- ==== Proof.LibJoinCols.lean ====
/-
  TWO ARRAYS JOINED SIDE BY SIDE, READ AT ONE ELEMENT.

  An array [n, a] and an array [n, b] joined along the column axis give an array [n, c] with c = a + b: element (p, k)
  is the left array's (p, k) when k < a and the right array's (p, k - a) otherwise (joined_left, joined_right). So if
  row p of two small arrays is row r of two large ones, piece by piece, then row p of the small joined array is row r
  of the large joined array (joined_row_eq): joining commutes with taking a block of rows.

  Generic in the extents and in the element type.
-/
import Idealize.ShloMosaic.Lib.Pipeline.Value
import Idealize.ShloMosaic.Lib.ValueIdx

namespace Cert.LibJoinCols

open Idealize.ShloMosaic Idealize.ShloMosaic.ValueIdx

variable {α : Type}

/-- The joined width is the sum of the two widths. -/
theorem width_eq {n a b c : Nat}
    (h : Shape.Concatenates [(⟨2, ![n, a]⟩ : Shape), ⟨2, ![n, b]⟩] ⟨2, ![n, c]⟩ 1) : a + b = c := by
  have e := h.2.2
  simp only [List.map, List.sum_cons, List.sum_nil, dite_true, Nat.add_zero] at e
  exact e

/-- A column of the left part: element (p, k) of the joined array is element (p, k) of the left array. -/
theorem joined_left {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₁ : Fin a) (hk : k₁.val = k.val) :
    concatenate ⟨2, ![n, c]⟩ 1 [⟨⟨2, ![n, a]⟩, x⟩, ⟨⟨2, ![n, b]⟩, y⟩] h (ix2 p k) = x (ix2 p k₁) :=
  concatenate_pair_apply_left 1 x y h (ix2 p k) rfl (ix2 p k₁) (fun d => by
    match d with
    | ⟨0, _⟩ => rfl
    | ⟨1, _⟩ => exact hk)

/-- A column of the right part: element (p, k) of the joined array is element (p, k - a) of the right array. -/
theorem joined_right {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₂ : Fin b) (hk : k₂.val + a = k.val) :
    concatenate ⟨2, ![n, c]⟩ 1 [⟨⟨2, ![n, a]⟩, x⟩, ⟨⟨2, ![n, b]⟩, y⟩] h (ix2 p k) = y (ix2 p k₂) :=
  concatenate_pair_apply_right 1 x y h (ix2 p k) rfl rfl (ix2 p k₂) (fun d hd => by
    match d with
    | ⟨0, _⟩ => rfl
    | ⟨1, _⟩ => exact absurd rfl hd) hk

/-- Joining commutes with taking rows: if row p of x is row r of X and row p of y is row r of Y, then row p of x
    joined with y is row r of X joined with Y. -/
theorem joined_row_eq {n N a b c : Nat}
    (h₁ : Shape.Concatenates [(⟨2, ![n, a]⟩ : Shape), ⟨2, ![n, b]⟩] ⟨2, ![n, c]⟩ 1)
    (h₂ : Shape.Concatenates [(⟨2, ![N, a]⟩ : Shape), ⟨2, ![N, b]⟩] ⟨2, ![N, c]⟩ 1)
    (x : (⟨2, ![n, a]⟩ : Shape).Idx → α) (y : (⟨2, ![n, b]⟩ : Shape).Idx → α)
    (X : (⟨2, ![N, a]⟩ : Shape).Idx → α) (Y : (⟨2, ![N, b]⟩ : Shape).Idx → α)
    (p : Fin n) (r : Fin N)
    (hx : ∀ k : Fin a, x (ix2 p k) = X (ix2 r k)) (hy : ∀ k : Fin b, y (ix2 p k) = Y (ix2 r k)) (k : Fin c) :
    concatenate ⟨2, ![n, c]⟩ 1 [⟨⟨2, ![n, a]⟩, x⟩, ⟨⟨2, ![n, b]⟩, y⟩] h₁ (ix2 p k)
      = concatenate ⟨2, ![N, c]⟩ 1 [⟨⟨2, ![N, a]⟩, X⟩, ⟨⟨2, ![N, b]⟩, Y⟩] h₂ (ix2 r k) := by
  have hc := width_eq h₁
  have hkc := k.isLt
  by_cases hk : k.val < a
  · rw [joined_left h₁ x y p k ⟨k.val, hk⟩ rfl, joined_left h₂ X Y r k ⟨k.val, hk⟩ rfl]
    exact hx _
  · have hk2 : k.val - a < b := by omega
    rw [joined_right h₁ x y p k ⟨k.val - a, hk2⟩ (by show k.val - a + a = k.val; omega),
      joined_right h₂ X Y r k ⟨k.val - a, hk2⟩ (by show k.val - a + a = k.val; omega)]
    exact hy _

end Cert.LibJoinCols
-- ==== Proof.KerPay1.lean ====
/-
  The kernel body's m = 1 values, read at one entry of a block of 200 edges.

  The body loads the block's real rows 7 … 12 (P16) and imaginary rows 13 … 18 (P18), columns 896 … 1663 of the
  block of xe (P20) and the block matrix (P25); it gates both halves by P20, joins them side by side to [200, 1536]
  and multiplies by P25. If the loaded pieces hold the arrays' entries for edges E … E + 199 and P25 the
  specification's block matrix, entry (r, n) of the product is O1 (E + r) n; its two halves, as [200, 6, 128], are
  the real and the imaginary result rows.
-/
import proofs.«144432_j48782238548458_1_alg».proof.Proof.Spec
import proofs.«144432_j48782238548458_1_alg».proof.Proof.Gen.KernelIdeal.Skeleton
import proofs.«144432_j48782238548458_1_alg».proof.Proof.LibBlocks
import proofs.«144432_j48782238548458_1_alg».proof.Proof.LibJoinCols
import Idealize.ShloMosaic.Lib.Pipeline.Value
import Idealize.ShloMosaic.Lib.ValueIdx
import Idealize.ShloMosaic.PureOps.Ideal.Laws

noncomputable section

open scoped BigOperators

namespace Cert.So2KerPay1

open Idealize.ShloMosaic Idealize.ShloMosaic.TcCoe Idealize.ShloMosaic.ValueIdx Cert.So2Spec
open Cert.KernelIdeal Cert.KernelIdeal.Gen

/-! ## The pieces of the left factor -/

/-- The block's rows flattened: column k of [200, 768] is row k / 128, channel k % 128 of [200, 6, 128]. -/
theorem flat_at (P : Vec Ideal S200x6x128 .f32) (r : Fin 200) (k : Fin 768) (l : Fin 6) (c : Fin 128)
    (hl : l.val = k.val / 128) (hc : c.val = k.val % 128) :
    shapeCast S200x768 P shapeCasts_S200x6x128_S200x768 (ix2 r k) = P (ix3 r l c) :=
  shapeCast_apply P shapeCasts_S200x6x128_S200x768 (ix2 r k) (ix3 r l c) (by
    rw [Shape.rowMajor_val_three, Shape.rowMajor_val_two]
    have := k.isLt
    show (r.val * 6 + l.val) * 128 + c.val = r.val * 768 + k.val
    omega)

/-- A gated half at column k: the flattened rows from row r0 on, times the loaded columns of xe. -/
theorem half_at (P : Vec Ideal S200x6x128 .f32) (P20 : Vec Ideal S200x768 .f32)
    (x : SX.Idx → EReal) (xe : SXE.Idx → EReal) (E r0 : Nat)
    (hP : ∀ (r : Fin 200) (l : Fin 6) (c : Fin 128), P (ix3 r l c) = at3 x (E + r.val) (r0 + l.val) c.val)
    (h20 : ∀ (r : Fin 200) (k : Fin 768), P20 (ix2 r k) = at2 xe (E + r.val) (896 + k.val))
    (r : Fin 200) (k : Fin 768) :
    mulf (F := Ideal) (φ := .f32) (shapeCast S200x768 P shapeCasts_S200x6x128_S200x768) P20 (ix2 r k)
      = at3 x (E + r.val) (r0 + k.val / 128) (k.val % 128) * at2 xe (E + r.val) (896 + k.val) := by
  have hk := k.isLt
  rw [mulf_apply, flat_at P r k ⟨k.val / 128, by omega⟩ ⟨k.val % 128, by omega⟩ rfl rfl, hP, h20]

/-- The joined gated row at column k is the specification's gated input at flat position k. -/
theorem joined_at (P16 P18 : Vec Ideal S200x6x128 .f32) (P20 : Vec Ideal S200x768 .f32)
    (x : SX.Idx → EReal) (xe : SXE.Idx → EReal) (E : Nat)
    (h16 : ∀ (r : Fin 200) (l : Fin 6) (c : Fin 128), P16 (ix3 r l c) = at3 x (E + r.val) (7 + l.val) c.val)
    (h18 : ∀ (r : Fin 200) (l : Fin 6) (c : Fin 128), P18 (ix3 r l c) = at3 x (E + r.val) (13 + l.val) c.val)
    (h20 : ∀ (r : Fin 200) (k : Fin 768), P20 (ix2 r k) = at2 xe (E + r.val) (896 + k.val))
    (r : Fin 200) (k : Fin 1536) :
    concatenate S200x1536 1
        [⟨S200x768, mulf (F := Ideal) (φ := .f32) (shapeCast S200x768 P16 shapeCasts_S200x6x128_S200x768) P20⟩,
         ⟨S200x768, mulf (F := Ideal) (φ := .f32) (shapeCast S200x768 P18 shapeCasts_S200x6x128_S200x768) P20⟩]
        concatenates_S200x768_S200x768_S200x1536_d1 (ix2 r k)
      = gatedM 7 896 768 x xe (E + r.val) k.val := by
  have hk := k.isLt
  unfold gatedM
  by_cases hlt : k.val < 768
  · -- the real half: column k of the left piece
    refine (Cert.LibJoinCols.joined_left concatenates_S200x768_S200x768_S200x1536_d1 _ _ r k ⟨k.val, hlt⟩ rfl).trans ?_
    refine (half_at P16 P20 x xe E 7 h16 h20 r ⟨k.val, hlt⟩).trans ?_
    show at3 x (E + r.val) (7 + k.val / 128) (k.val % 128) * at2 xe (E + r.val) (896 + k.val) = _
    rw [Nat.mod_eq_of_lt hlt]
  · -- the imaginary half: column k - 768 of the right piece
    have h2 : k.val - 768 < 768 := by omega
    refine (Cert.LibJoinCols.joined_right concatenates_S200x768_S200x768_S200x1536_d1 _ _ r k ⟨k.val - 768, h2⟩
      (by show k.val - 768 + 768 = k.val; omega)).trans ?_
    refine (half_at P18 P20 x xe E 13 h18 h20 r ⟨k.val - 768, h2⟩).trans ?_
    show at3 x (E + r.val) (13 + (k.val - 768) / 128) ((k.val - 768) % 128) * at2 xe (E + r.val) (896 + (k.val - 768)) = _
    have e1 : 13 + (k.val - 768) / 128 = 7 + k.val / 128 := by omega
    have e2 : (k.val - 768) % 128 = k.val % 128 := by omega
    have e3 : k.val - 768 = k.val % 768 := by omega
    rw [e1, e2, ← e3]

/-- Entry (r, n) of the m = 1 product on the block. -/
theorem pay5_at (P16 P18 : Vec Ideal S200x6x128 .f32) (P20 : Vec Ideal S200x768 .f32) (P25 : Vec Ideal S1536x1536 .bf16)
    (x : SX.Idx → EReal) (xe : SXE.Idx → EReal) (w1 w2 : SW1.Idx → EReal) (E : Nat)
    (h16 : ∀ (r : Fin 200) (l : Fin 6) (c : Fin 128), P16 (ix3 r l c) = at3 x (E + r.val) (7 + l.val) c.val)
    (h18 : ∀ (r : Fin 200) (l : Fin 6) (c : Fin 128), P18 (ix3 r l c) = at3 x (E + r.val) (13 + l.val) c.val)
    (h20 : ∀ (r : Fin 200) (k : Fin 768), P20 (ix2 r k) = at2 xe (E + r.val) (896 + k.val))
    (h25 : ∀ (k n : Fin 1536), P25 (ix2 k n) = blockT w1 w2 k.val n.val)
    (r : Fin 200) (n : Fin 1536) :
    k0_pay5 (F := Ideal) P16 P18 P20 P25 (ix2 r n) = O1 x xe w1 w2 (E + r.val) n.val := by
  unfold k0_pay5
  -- the product into a zero accumulator is the sum over the joined width
  refine (Cert.LibBlocks.matmul_plain_apply dot_S200x1536_S1536x1536_S200x1536_1_0_0_1_n_n rfl none _ _ r n).trans ?_
  unfold O1
  refine Finset.sum_congr rfl fun k _ => ?_
  -- the narrowing is the identity, and the matrix is cast onto its own shape
  rw [truncf_apply, shapeCast_self, h25 k n, joined_at P16 P18 P20 x xe E h16 h18 h20 r k]

/-- The real result rows of the block: row l, channel c is output 128 l + c. -/
theorem pay6_at (P16 P18 : Vec Ideal S200x6x128 .f32) (P20 : Vec Ideal S200x768 .f32) (P25 : Vec Ideal S1536x1536 .bf16)
    (x : SX.Idx → EReal) (xe : SXE.Idx → EReal) (w1 w2 : SW1.Idx → EReal) (E : Nat)
    (h16 : ∀ (r : Fin 200) (l : Fin 6) (c : Fin 128), P16 (ix3 r l c) = at3 x (E + r.val) (7 + l.val) c.val)
    (h18 : ∀ (r : Fin 200) (l : Fin 6) (c : Fin 128), P18 (ix3 r l c) = at3 x (E + r.val) (13 + l.val) c.val)
    (h20 : ∀ (r : Fin 200) (k : Fin 768), P20 (ix2 r k) = at2 xe (E + r.val) (896 + k.val))
    (h25 : ∀ (k n : Fin 1536), P25 (ix2 k n) = blockT w1 w2 k.val n.val)
    (r : Fin 200) (l : Fin 6) (c : Fin 128) :
    k0_pay6 (F := Ideal) P16 P18 P20 P25 (ix3 r l c) = O1 x xe w1 w2 (E + r.val) (128 * l.val + c.val) := by
  have hl := l.isLt
  have hc := c.isLt
  have hq : 128 * l.val + c.val < 768 := by omega
  have hq' : 128 * l.val + c.val < 1536 := by omega
  unfold k0_pay6
  -- [200, 6, 128] at (r, l, c) reads [200, 768] at (r, 128 l + c)
  refine (shapeCast_apply _ shapeCasts_S200x768_S200x6x128 (ix3 r l c) (ix2 r ⟨128 * l.val + c.val, hq⟩) (by
    rw [Shape.rowMajor_val_two, Shape.rowMajor_val_three]
    show r.val * 768 + (128 * l.val + c.val) = (r.val * 6 + l.val) * 128 + c.val
    omega)).trans ?_
  -- the slice at offset (0, 0) reads the product at the same entry
  refine (extractStridedSlice_apply _ _ slices_S200x1536_o0_0_S200x768 (ix2 r ⟨128 * l.val + c.val, hq⟩)
    (ix2 r ⟨128 * l.val + c.val, hq'⟩) (fun a => by
      match a with
      | ⟨0, _⟩ => show r.val = 0 + r.val; omega
      | ⟨1, _⟩ => show 128 * l.val + c.val = 0 + (128 * l.val + c.val); omega)).trans ?_
  exact pay5_at P16 P18 P20 P25 x xe w1 w2 E h16 h18 h20 h25 r ⟨128 * l.val + c.val, hq'⟩

/-- The imaginary result rows of the block: row l, channel c is output 768 + 128 l + c. -/
theorem pay7_at (P16 P18 : Vec Ideal S200x6x128 .f32) (P20 : Vec Ideal S200x768 .f32) (P25 : Vec Ideal S1536x1536 .bf16)
    (x : SX.Idx → EReal) (xe : SXE.Idx → EReal) (w1 w2 : SW1.Idx → EReal) (E : Nat)
    (h16 : ∀ (r : Fin 200) (l : Fin 6) (c : Fin 128), P16 (ix3 r l c) = at3 x (E + r.val) (7 + l.val) c.val)
    (h18 : ∀ (r : Fin 200) (l : Fin 6) (c : Fin 128), P18 (ix3 r l c) = at3 x (E + r.val) (13 + l.val) c.val)
    (h20 : ∀ (r : Fin 200) (k : Fin 768), P20 (ix2 r k) = at2 xe (E + r.val) (896 + k.val))
    (h25 : ∀ (k n : Fin 1536), P25 (ix2 k n) = blockT w1 w2 k.val n.val)
    (r : Fin 200) (l : Fin 6) (c : Fin 128) :
    k0_pay7 (F := Ideal) P16 P18 P20 P25 (ix3 r l c) = O1 x xe w1 w2 (E + r.val) (768 + 128 * l.val + c.val) := by
  have hl := l.isLt
  have hc := c.isLt
  have hq : 128 * l.val + c.val < 768 := by omega
  have hq' : 768 + 128 * l.val + c.val < 1536 := by omega
  unfold k0_pay7
  -- [200, 6, 128] at (r, l, c) reads [200, 768] at (r, 128 l + c)
  refine (shapeCast_apply _ shapeCasts_S200x768_S200x6x128 (ix3 r l c) (ix2 r ⟨128 * l.val + c.val, hq⟩) (by
    rw [Shape.rowMajor_val_two, Shape.rowMajor_val_three]
    show r.val * 768 + (128 * l.val + c.val) = (r.val * 6 + l.val) * 128 + c.val
    omega)).trans ?_
  -- the slice at offset (0, 768) reads the product 768 columns further on
  refine (extractStridedSlice_apply _ _ slices_S200x1536_o0_768_S200x768 (ix2 r ⟨128 * l.val + c.val, hq⟩)
    (ix2 r ⟨768 + 128 * l.val + c.val, hq'⟩) (fun a => by
      match a with
      | ⟨0, _⟩ => show r.val = 0 + r.val; omega
      | ⟨1, _⟩ => show 768 + 128 * l.val + c.val = 768 + (128 * l.val + c.val); omega)).trans ?_
  exact pay5_at P16 P18 P20 P25 x xe w1 w2 E h16 h18 h20 h25 r ⟨768 + 128 * l.val + c.val, hq'⟩

end Cert.So2KerPay1

end
-- ==== Proof.KerPay2.lean ====
/-
  The kernel body's output block, read at one entry.

  The block [200, 29, 128] joins, along the row axis, the 7 rows of m = 0 (v15), the 6 real and 6 imaginary rows of
  m = 1 (v29, v31) and the 5 real and 5 imaginary rows of m = 2, which the same payload computes: rows 19 … 23 (P32)
  and 24 … 28 (P34) of the block of x, gated by columns 1664 … 2303 of the block of xe (P36), joined side by side to
  [200, 1280] and multiplied by the block matrix (P41). If the pieces hold the arrays' entries for edges E … E + 199,
  row l, channel c of edge r of the block is the specification's value at edge E + r.
-/
import proofs.«144432_j48782238548458_1_alg».proof.Proof.Spec
import proofs.«144432_j48782238548458_1_alg».proof.Proof.Gen.KernelIdeal.Skeleton
import proofs.«144432_j48782238548458_1_alg».proof.Proof.LibBlocks
import proofs.«144432_j48782238548458_1_alg».proof.Proof.LibJoinCols
import Idealize.ShloMosaic.Lib.Pipeline.Value
import Idealize.ShloMosaic.Lib.ValueIdx
import Idealize.ShloMosaic.PureOps.Ideal.Laws

noncomputable section

open scoped BigOperators

namespace Cert.So2KerPay2

open Idealize.ShloMosaic Idealize.ShloMosaic.TcCoe Idealize.ShloMosaic.ValueIdx Cert.So2Spec
open Cert.KernelIdeal Cert.KernelIdeal.Gen

/-! ## The layout operations of the payload, read at one entry -/

/-- Five rows of 128 channels flattened to 640 columns: column k is row k / 128, channel k % 128. -/
theorem flat_at (P : FVec Ideal S200x5x128 .f32) (r : Fin 200) (k : Fin 640) :
    shapeCast S200x640 P shapeCasts_S200x5x128_S200x640 (ix2 r k)
      = P (ix3 r ⟨k.val / 128, by omega⟩ ⟨k.val % 128, Nat.mod_lt _ (by decide)⟩) := by
  refine shapeCast_apply P _ (ix2 r k) _ ?_
  rw [Shape.rowMajor_val_three, Shape.rowMajor_val_two]
  show (r.val * 5 + k.val / 128) * 128 + k.val % 128 = r.val * 640 + k.val
  omega

/-- The first 640 columns of a [200, 1280] array as five rows of 128 channels: row l, channel c is column 128 l + c. -/
theorem rows_lo_at (v : FVec Ideal S200x1280 .f32) (r : Fin 200) (l : Fin 5) (c : Fin 128) :
    shapeCast S200x5x128 (extractStridedSlice S200x640 ![0, 0] v slices_S200x1280_o0_0_S200x640)
        shapeCasts_S200x640_S200x5x128 (ix3 r l c)
      = v (ix2 r ⟨128 * l.val + c.val, by omega⟩) := by
  refine (shapeCast_apply _ _ (ix3 r l c) (ix2 r (⟨128 * l.val + c.val, by omega⟩ : Fin 640)) ?_).trans ?_
  · rw [Shape.rowMajor_val_three, Shape.rowMajor_val_two]
    show r.val * 640 + (128 * l.val + c.val) = (r.val * 5 + l.val) * 128 + c.val
    omega
  · refine extractStridedSlice_apply _ v _ _ _ fun a => ?_
    match a with
    | ⟨0, _⟩ => show r.val = 0 + r.val; omega
    | ⟨1, _⟩ => show 128 * l.val + c.val = 0 + (128 * l.val + c.val); omega

/-- The last 640 columns of a [200, 1280] array as five rows of 128 channels: row l, channel c is column
    640 + 128 l + c. -/
theorem rows_hi_at (v : FVec Ideal S200x1280 .f32) (r : Fin 200) (l : Fin 5) (c : Fin 128) :
    shapeCast S200x5x128 (extractStridedSlice S200x640 ![0, 640] v slices_S200x1280_o0_640_S200x640)
        shapeCasts_S200x640_S200x5x128 (ix3 r l c)
      = v (ix2 r ⟨640 + 128 * l.val + c.val, by omega⟩) := by
  refine (shapeCast_apply _ _ (ix3 r l c) (ix2 r (⟨128 * l.val + c.val, by omega⟩ : Fin 640)) ?_).trans ?_
  · rw [Shape.rowMajor_val_three, Shape.rowMajor_val_two]
    show r.val * 640 + (128 * l.val + c.val) = (r.val * 5 + l.val) * 128 + c.val
    omega
  · refine extractStridedSlice_apply _ v _ _ _ fun a => ?_
    match a with
    | ⟨0, _⟩ => show r.val = 0 + r.val; omega
    | ⟨1, _⟩ => show 640 + 128 * l.val + c.val = 640 + (128 * l.val + c.val); omega

/-! ## m = 2 -/

/-- Column k of the gated rows of m = 2, the real rows (19 … 23) beside the imaginary rows (24 … 28), both gated by
    columns 1664 … 2303 of xe. -/
theorem gated2_at (P32 P34 : FVec Ideal S200x5x128 .f32) (P36 : FVec Ideal S200x640 .f32)
    (x : SX.Idx → EReal) (xe : SXE.Idx → EReal) (E : Nat)
    (h32 : ∀ (r : Fin 200) (l : Fin 5) (c : Fin 128), P32 (ix3 r l c) = at3 x (E + r.val) (19 + l.val) c.val)
    (h34 : ∀ (r : Fin 200) (l : Fin 5) (c : Fin 128), P34 (ix3 r l c) = at3 x (E + r.val) (24 + l.val) c.val)
    (h36 : ∀ (r : Fin 200) (k : Fin 640), P36 (ix2 r k) = at2 xe (E + r.val) (1664 + k.val))
    (r : Fin 200) (k : Fin 1280) :
    concatenate S200x1280 1
        [⟨S200x640, mulf (shapeCast S200x640 P32 shapeCasts_S200x5x128_S200x640) P36⟩,
          ⟨S200x640, mulf (shapeCast S200x640 P34 shapeCasts_S200x5x128_S200x640) P36⟩]
        concatenates_S200x640_S200x640_S200x1280_d1 (ix2 r k)
      = gatedM 19 1664 640 x xe (E + r.val) k.val := by
  unfold gatedM
  by_cases hk : k.val < 640
  · refine (Cert.LibJoinCols.joined_left concatenates_S200x640_S200x640_S200x1280_d1 _ _ r k ⟨k.val, hk⟩ rfl).trans ?_
    rw [mulf_apply, flat_at, h32, h36]
    show at3 x (E + r.val) (19 + k.val / 128) (k.val % 128) * at2 xe (E + r.val) (1664 + k.val) = _
    rw [Nat.mod_eq_of_lt hk]
  · have e1 : 24 + (k.val - 640) / 128 = 19 + k.val / 128 := by omega
    have e2 : (k.val - 640) % 128 = k.val % 128 := by omega
    have e3 : k.val % 640 = k.val - 640 := by omega
    refine (Cert.LibJoinCols.joined_right concatenates_S200x640_S200x640_S200x1280_d1 _ _ r k ⟨k.val - 640, by omega⟩
      (by show k.val - 640 + 640 = k.val; omega)).trans ?_
    rw [mulf_apply, flat_at, h34, h36]
    show at3 x (E + r.val) (24 + (k.val - 640) / 128) ((k.val - 640) % 128) * at2 xe (E + r.val) (1664 + (k.val - 640)) = _
    rw [e1, e2, e3]

/-- Entry (r, n) of the product of the gated rows with the block matrix: the specification's m = 2 output n of edge
    E + r. -/
theorem prod2_at (P32 P34 : FVec Ideal S200x5x128 .f32) (P36 : FVec Ideal S200x640 .f32) (P41 : FVec Ideal S1280x1280 .bf16)
    (x : SX.Idx → EReal) (xe : SXE.Idx → EReal) (w12 w22 : SW2.Idx → EReal) (E : Nat)
    (h32 : ∀ (r : Fin 200) (l : Fin 5) (c : Fin 128), P32 (ix3 r l c) = at3 x (E + r.val) (19 + l.val) c.val)
    (h34 : ∀ (r : Fin 200) (l : Fin 5) (c : Fin 128), P34 (ix3 r l c) = at3 x (E + r.val) (24 + l.val) c.val)
    (h36 : ∀ (r : Fin 200) (k : Fin 640), P36 (ix2 r k) = at2 xe (E + r.val) (1664 + k.val))
    (h41 : ∀ (k n : Fin 1280), P41 (ix2 k n) = blockT w12 w22 k.val n.val)
    (r : Fin 200) (n : Fin 1280) :
    matmul dot_S200x1280_S1280x1280_S200x1280_1_0_0_1_n_n none
        (truncf .bf16
          (concatenate S200x1280 1
            [⟨S200x640, mulf (shapeCast S200x640 P32 shapeCasts_S200x5x128_S200x640) P36⟩,
              ⟨S200x640, mulf (shapeCast S200x640 P34 shapeCasts_S200x5x128_S200x640) P36⟩]
            concatenates_S200x640_S200x640_S200x1280_d1) bitsLt_bf16_f32)
        (shapeCast S1280x1280 P41 shapeCasts_S1280x1280_S1280x1280)
        (constant (F := Ideal) S200x1280 .f32 0x00000000#32) (ix2 r n)
      = O2 x xe w12 w22 (E + r.val) n.val := by
  show FloatOps.matmul dot_S200x1280_S1280x1280_S200x1280_1_0_0_1_n_n none _ _ _ _ = _
  refine (Cert.LibBlocks.matmul_plain_apply dot_S200x1280_S1280x1280_S200x1280_1_0_0_1_n_n rfl none _ _ r n).trans ?_
  unfold O2
  refine Finset.sum_congr rfl fun k _ => ?_
  rw [truncf_apply, gated2_at P32 P34 P36 x xe E h32 h34 h36 r k, shapeCast_self, h41]

/-! ## The output block -/

/-- Row l, channel c of edge r of the output block. -/
theorem pay1_at (v15 : FVec Ideal S200x7x128 .f32) (v29 v31 : FVec Ideal S200x6x128 .f32)
    (P32 P34 : Vec Ideal S200x5x128 .f32) (P36 : Vec Ideal S200x640 .f32) (P41 : Vec Ideal S1280x1280 .bf16)
    (x : SX.Idx → EReal) (xe : SXE.Idx → EReal) (w0 : SW0.Idx → EReal) (b : SB.Idx → EReal)
    (w11 w21 : SW1.Idx → EReal) (w12 w22 : SW2.Idx → EReal) (E : Nat)
    (hv15 : ∀ (r : Fin 200) (l : Fin 7) (c : Fin 128), v15 (ix3 r l c) = H0 x xe w0 b (E + r.val) (128 + 128 * l.val + c.val))
    (hv29 : ∀ (r : Fin 200) (l : Fin 6) (c : Fin 128), v29 (ix3 r l c) = O1 x xe w11 w21 (E + r.val) (128 * l.val + c.val))
    (hv31 : ∀ (r : Fin 200) (l : Fin 6) (c : Fin 128), v31 (ix3 r l c) = O1 x xe w11 w21 (E + r.val) (768 + 128 * l.val + c.val))
    (h32 : ∀ (r : Fin 200) (l : Fin 5) (c : Fin 128), P32 (ix3 r l c) = at3 x (E + r.val) (19 + l.val) c.val)
    (h34 : ∀ (r : Fin 200) (l : Fin 5) (c : Fin 128), P34 (ix3 r l c) = at3 x (E + r.val) (24 + l.val) c.val)
    (h36 : ∀ (r : Fin 200) (k : Fin 640), P36 (ix2 r k) = at2 xe (E + r.val) (1664 + k.val))
    (h41 : ∀ (k n : Fin 1280), P41 (ix2 k n) = blockT w12 w22 k.val n.val)
    (r : Fin 200) (l : Fin 29) (c : Fin 128) :
    k0_pay1 (F := Ideal) v15 v29 v31 P32 P34 P36 P41 (ix3 r l c)
      = outAt x xe w0 b w11 w21 w12 w22 (E + r.val) l.val c.val := by
  have hl := l.isLt
  unfold k0_pay1 outAt
  by_cases h7 : l.val < 7
  · rw [if_pos h7]
    refine (concatenate_apply_piece 1 _ _ (ix3 r l c) 0 (by show (0 : Nat) < 5; decide) S200x7x128 v15 rfl rfl 0 rfl
      (ix3 r ⟨l.val, h7⟩ c) (fun b hb => ?_) ?_).trans ?_
    · match b with
      | ⟨0, _⟩ => rfl
      | ⟨1, _⟩ => exact absurd rfl hb
      | ⟨2, _⟩ => rfl
    · show 0 + l.val = l.val
      omega
    · exact hv15 r ⟨l.val, h7⟩ c
  · rw [if_neg h7]
    by_cases h13 : l.val < 13
    · rw [if_pos (by omega : l.val < 19)]
      refine (concatenate_apply_piece 1 _ _ (ix3 r l c) 1 (by show (1 : Nat) < 5; decide) S200x6x128 v29 rfl rfl 7 rfl
        (ix3 r ⟨l.val - 7, by omega⟩ c) (fun b hb => ?_) ?_).trans ?_
      · match b with
        | ⟨0, _⟩ => rfl
        | ⟨1, _⟩ => exact absurd rfl hb
        | ⟨2, _⟩ => rfl
      · show 7 + (l.val - 7) = l.val
        omega
      · exact hv29 r ⟨l.val - 7, by omega⟩ c
    · by_cases h19 : l.val < 19
      · rw [if_pos h19]
        refine (concatenate_apply_piece 1 _ _ (ix3 r l c) 2 (by show (2 : Nat) < 5; decide) S200x6x128 v31 rfl rfl 13 rfl
          (ix3 r ⟨l.val - 13, by omega⟩ c) (fun b hb => ?_) ?_).trans ?_
        · match b with
          | ⟨0, _⟩ => rfl
          | ⟨1, _⟩ => exact absurd rfl hb
          | ⟨2, _⟩ => rfl
        · show 13 + (l.val - 13) = l.val
          omega
        · refine (hv31 r ⟨l.val - 13, by omega⟩ c).trans ?_
          refine congrArg (O1 x xe w11 w21 (E + r.val)) ?_
          show 768 + 128 * (l.val - 13) + c.val = 128 * (l.val - 7) + c.val
          omega
      · rw [if_neg h19]
        by_cases h24 : l.val < 24
        · refine (concatenate_apply_piece 1 _ _ (ix3 r l c) 3 (by show (3 : Nat) < 5; decide) S200x5x128 _ rfl rfl 19 rfl
            (ix3 r ⟨l.val - 19, by omega⟩ c) (fun b hb => ?_) ?_).trans ?_
          · match b with
            | ⟨0, _⟩ => rfl
            | ⟨1, _⟩ => exact absurd rfl hb
            | ⟨2, _⟩ => rfl
          · show 19 + (l.val - 19) = l.val
            omega
          · refine (rows_lo_at _ r ⟨l.val - 19, by omega⟩ c).trans ?_
            exact prod2_at P32 P34 P36 P41 x xe w12 w22 E h32 h34 h36 h41 r _
        · refine (concatenate_apply_piece 1 _ _ (ix3 r l c) 4 (by show (4 : Nat) < 5; decide) S200x5x128 _ rfl rfl 24 rfl
            (ix3 r ⟨l.val - 24, by omega⟩ c) (fun b hb => ?_) ?_).trans ?_
          · match b with
            | ⟨0, _⟩ => rfl
            | ⟨1, _⟩ => exact absurd rfl hb
            | ⟨2, _⟩ => rfl
          · show 24 + (l.val - 24) = l.val
            omega
          · refine (rows_hi_at _ r ⟨l.val - 24, by omega⟩ c).trans ?_
            refine (prod2_at P32 P34 P36 P41 x xe w12 w22 E h32 h34 h36 h41 r _).trans ?_
            refine congrArg (O2 x xe w12 w22 (E + r.val)) ?_
            show 640 + 128 * (l.val - 24) + c.val = 128 * (l.val - 19) + c.val
            omega

end Cert.So2KerPay2

end
-- ==== Proof.BlockMat.lean ====
/-
  The block matrix of an m > 0 order, read at one entry.

  For square matrices w1, w2 of side h the reference builds [[w1, -w2], [w2, w1]] (side c = 2 h) and transposes it;
  the kernel's host code builds [[w1ᵀ, w2ᵀ], [-(w2ᵀ), w1ᵀ]] directly. Entry (k, n) of either is the
  specification's blockT w1 w2 k n: which of the four blocks it lies in is decided by the halves k and n fall in.
  Generic in h and c.
-/
import proofs.«144432_j48782238548458_1_alg».proof.Proof.Spec
import proofs.«144432_j48782238548458_1_alg».proof.Proof.LibJoinCols
import Idealize.ShloMosaic.Lib.Pipeline.Value
import Idealize.ShloMosaic.Lib.ValueIdx
import Idealize.ShloMosaic.PureOps.Ideal

noncomputable section

namespace Cert.So2BlockMat

open Idealize.ShloMosaic Idealize.ShloMosaic.ValueIdx Cert.So2Spec

/-! ## Two arrays stacked one above the other, and a transposed matrix, read at one element -/

section Stack
variable {α : Type}

/-- A row of the upper part: element (p, q) of [a, n] stacked over [b, n] is element (p, q) of the upper array. -/
theorem stacked_top {a b c n : Nat}
    (h : Shape.Concatenates [(⟨2, ![a, n]⟩ : Shape), ⟨2, ![b, n]⟩] ⟨2, ![c, n]⟩ 0)
    (x : (⟨2, ![a, n]⟩ : Shape).Idx → α) (y : (⟨2, ![b, n]⟩ : Shape).Idx → α)
    (p : Fin c) (q : Fin n) (p₁ : Fin a) (hp : p₁.val = p.val) :
    concatenate ⟨2, ![c, n]⟩ 0 [⟨⟨2, ![a, n]⟩, x⟩, ⟨⟨2, ![b, n]⟩, y⟩] h (ix2 p q) = x (ix2 p₁ q) :=
  concatenate_pair_apply_left 0 x y h (ix2 p q) rfl (ix2 p₁ q) (fun d => by
    match d with
    | ⟨0, _⟩ => exact hp
    | ⟨1, _⟩ => rfl)

/-- A row of the lower part: element (p, q) of the stack is element (p - a, q) of the lower array. -/
theorem stacked_bottom {a b c n : Nat}
    (h : Shape.Concatenates [(⟨2, ![a, n]⟩ : Shape), ⟨2, ![b, n]⟩] ⟨2, ![c, n]⟩ 0)
    (x : (⟨2, ![a, n]⟩ : Shape).Idx → α) (y : (⟨2, ![b, n]⟩ : Shape).Idx → α)
    (p : Fin c) (q : Fin n) (p₂ : Fin b) (hp : p₂.val + a = p.val) :
    concatenate ⟨2, ![c, n]⟩ 0 [⟨⟨2, ![a, n]⟩, x⟩, ⟨⟨2, ![b, n]⟩, y⟩] h (ix2 p q) = y (ix2 p₂ q) :=
  concatenate_pair_apply_right 0 x y h (ix2 p q) rfl rfl (ix2 p₂ q) (fun d hd => by
    match d with
    | ⟨0, _⟩ => exact absurd rfl hd
    | ⟨1, _⟩ => rfl) hp

/-- Element (p, q) of the transpose of a matrix is its element (q, p). -/
theorem transposed_at {a b : Nat} (ht : (⟨2, ![a, b]⟩ : Shape).Transposes [1, 0] ⟨2, ![b, a]⟩)
    (x : (⟨2, ![a, b]⟩ : Shape).Idx → α) (p : Fin b) (q : Fin a) :
    transpose ⟨2, ![b, a]⟩ [1, 0] x ht (ix2 p q) = x (ix2 q p) :=
  transpose_apply [1, 0] x ht (ix2 p q) (ix2 q p) (fun d => match d with
    | ⟨0, _⟩ => rfl
    | ⟨1, _⟩ => rfl)

end Stack

/-- The host's negation of a matrix at an index is the negative of its element there. -/
theorem negf_at {s : Shape} (x : FVec Ideal s .f32) (i : s.Idx) : Host.negf x i = -(x i) := rfl

/-- The reference's form: the transpose of [[w1, -w2], [w2, w1]] at (k, n). -/
theorem blockT_ref {h c : Nat}
    (hc1 : Shape.Concatenates [(⟨2, ![h, h]⟩ : Shape), ⟨2, ![h, h]⟩] ⟨2, ![h, c]⟩ 1)
    (hc0 : Shape.Concatenates [(⟨2, ![h, c]⟩ : Shape), ⟨2, ![h, c]⟩] ⟨2, ![c, c]⟩ 0)
    (ht : (⟨2, ![c, c]⟩ : Shape).Transposes [1, 0] ⟨2, ![c, c]⟩)
    (w1 w2 : FVec Ideal ⟨2, ![h, h]⟩ .f32) (k n : Fin c) :
    transpose ⟨2, ![c, c]⟩ [1, 0]
      (concatenate ⟨2, ![c, c]⟩ 0
        [⟨⟨2, ![h, c]⟩, concatenate ⟨2, ![h, c]⟩ 1 [⟨⟨2, ![h, h]⟩, w1⟩, ⟨⟨2, ![h, h]⟩, Host.negf w2⟩] hc1⟩,
         ⟨⟨2, ![h, c]⟩, concatenate ⟨2, ![h, c]⟩ 1 [⟨⟨2, ![h, h]⟩, w2⟩, ⟨⟨2, ![h, h]⟩, w1⟩] hc1⟩] hc0) ht (ix2 k n)
      = blockT w1 w2 k.val n.val := by
  have hw : h + h = c := Cert.LibJoinCols.width_eq hc1
  have hkc := k.isLt
  have hnc := n.isLt
  -- entry (k, n) of the transpose is entry (n, k) of the block matrix
  rw [transposed_at ht _ k n]
  unfold blockT
  by_cases hk : k.val < h
  · rw [if_pos hk]
    by_cases hn : n.val < h
    · -- upper left block: w1 at (n, k)
      rw [if_pos hn, stacked_top hc0 _ _ n k ⟨n.val, hn⟩ rfl,
        Cert.LibJoinCols.joined_left hc1 _ _ ⟨n.val, hn⟩ k ⟨k.val, hk⟩ rfl]
      exact at2_ix w1 _ _ _ _ rfl rfl
    · -- lower left block: w2 at (n - h, k)
      have hn2 : n.val - h < h := by omega
      rw [if_neg hn, stacked_bottom hc0 _ _ n k ⟨n.val - h, hn2⟩ (by show n.val - h + h = n.val; omega),
        Cert.LibJoinCols.joined_left hc1 _ _ ⟨n.val - h, hn2⟩ k ⟨k.val, hk⟩ rfl]
      exact at2_ix w2 _ _ _ _ rfl rfl
  · rw [if_neg hk]
    have hk2 : k.val - h < h := by omega
    by_cases hn : n.val < h
    · -- upper right block: -w2 at (n, k - h)
      rw [if_pos hn, stacked_top hc0 _ _ n k ⟨n.val, hn⟩ rfl,
        Cert.LibJoinCols.joined_right hc1 _ _ ⟨n.val, hn⟩ k ⟨k.val - h, hk2⟩ (by show k.val - h + h = k.val; omega),
        negf_at]
      exact congrArg Neg.neg (at2_ix w2 _ _ _ _ rfl rfl)
    · -- lower right block: w1 at (n - h, k - h)
      have hn2 : n.val - h < h := by omega
      rw [if_neg hn, stacked_bottom hc0 _ _ n k ⟨n.val - h, hn2⟩ (by show n.val - h + h = n.val; omega),
        Cert.LibJoinCols.joined_right hc1 _ _ ⟨n.val - h, hn2⟩ k ⟨k.val - h, hk2⟩ (by show k.val - h + h = k.val; omega)]
      exact at2_ix w1 _ _ _ _ rfl rfl

/-- The kernel's form: [[w1ᵀ, w2ᵀ], [-(w2ᵀ), w1ᵀ]] at (k, n). -/
theorem blockT_ker {h c : Nat}
    (hc1 : Shape.Concatenates [(⟨2, ![h, h]⟩ : Shape), ⟨2, ![h, h]⟩] ⟨2, ![h, c]⟩ 1)
    (hc0 : Shape.Concatenates [(⟨2, ![h, c]⟩ : Shape), ⟨2, ![h, c]⟩] ⟨2, ![c, c]⟩ 0)
    (ht : (⟨2, ![h, h]⟩ : Shape).Transposes [1, 0] ⟨2, ![h, h]⟩)
    (w1 w2 : FVec Ideal ⟨2, ![h, h]⟩ .f32) (k n : Fin c) :
    concatenate ⟨2, ![c, c]⟩ 0
        [⟨⟨2, ![h, c]⟩, concatenate ⟨2, ![h, c]⟩ 1
            [⟨⟨2, ![h, h]⟩, transpose ⟨2, ![h, h]⟩ [1, 0] w1 ht⟩, ⟨⟨2, ![h, h]⟩, transpose ⟨2, ![h, h]⟩ [1, 0] w2 ht⟩] hc1⟩,
         ⟨⟨2, ![h, c]⟩, concatenate ⟨2, ![h, c]⟩ 1
            [⟨⟨2, ![h, h]⟩, Host.negf (transpose ⟨2, ![h, h]⟩ [1, 0] w2 ht)⟩, ⟨⟨2, ![h, h]⟩, transpose ⟨2, ![h, h]⟩ [1, 0] w1 ht⟩] hc1⟩] hc0
        (ix2 k n)
      = blockT w1 w2 k.val n.val := by
  have hw : h + h = c := Cert.LibJoinCols.width_eq hc1
  have hkc := k.isLt
  have hnc := n.isLt
  unfold blockT
  by_cases hk : k.val < h
  · rw [if_pos hk]
    by_cases hn : n.val < h
    · -- upper left block: w1ᵀ at (k, n) is w1 at (n, k)
      rw [if_pos hn, stacked_top hc0 _ _ k n ⟨k.val, hk⟩ rfl,
        Cert.LibJoinCols.joined_left hc1 _ _ ⟨k.val, hk⟩ n ⟨n.val, hn⟩ rfl, transposed_at ht w1]
      exact at2_ix w1 _ _ _ _ rfl rfl
    · -- upper right block: w2ᵀ at (k, n - h) is w2 at (n - h, k)
      have hn2 : n.val - h < h := by omega
      rw [if_neg hn, stacked_top hc0 _ _ k n ⟨k.val, hk⟩ rfl,
        Cert.LibJoinCols.joined_right hc1 _ _ ⟨k.val, hk⟩ n ⟨n.val - h, hn2⟩ (by show n.val - h + h = n.val; omega),
        transposed_at ht w2]
      exact at2_ix w2 _ _ _ _ rfl rfl
  · rw [if_neg hk]
    have hk2 : k.val - h < h := by omega
    by_cases hn : n.val < h
    · -- lower left block: -(w2ᵀ) at (k - h, n) is -w2 at (n, k - h)
      rw [if_pos hn, stacked_bottom hc0 _ _ k n ⟨k.val - h, hk2⟩ (by show k.val - h + h = k.val; omega),
        Cert.LibJoinCols.joined_left hc1 _ _ ⟨k.val - h, hk2⟩ n ⟨n.val, hn⟩ rfl, negf_at, transposed_at ht w2]
      exact congrArg Neg.neg (at2_ix w2 _ _ _ _ rfl rfl)
    · -- lower right block: w1ᵀ at (k - h, n - h) is w1 at (n - h, k - h)
      have hn2 : n.val - h < h := by omega
      rw [if_neg hn, stacked_bottom hc0 _ _ k n ⟨k.val - h, hk2⟩ (by show k.val - h + h = k.val; omega),
        Cert.LibJoinCols.joined_right hc1 _ _ ⟨k.val - h, hk2⟩ n ⟨n.val - h, hn2⟩ (by show n.val - h + h = n.val; omega),
        transposed_at ht w1]
      exact at2_ix w1 _ _ _ _ rfl rfl

end Cert.So2BlockMat

end
-- ==== Proof.KerHost.lean ====
/-
  The arrays the kernel's host code prepares before the call, read at one entry.

  Before the call the program transposes w0 (the call's third operand), views the bias as one row (the fourth), and
  builds for m = 1 and m = 2 the block matrix [[w1ᵀ, w2ᵀ], [-(w2ᵀ), w1ᵀ]] (the fifth and sixth); a change of float
  format is the identity here. Entry (k, n) of the first is w0[n, k], entry (0, n) of the second is b[n], and the
  block matrices are the specification's blockT.
-/
import proofs.«144432_j48782238548458_1_alg».proof.Proof.Spec
import proofs.«144432_j48782238548458_1_alg».proof.Proof.Gen.KernelIdeal.Frame
import proofs.«144432_j48782238548458_1_alg».proof.Proof.BlockMat
import Idealize.ShloMosaic.Lib.Pipeline.Value
import Idealize.ShloMosaic.Lib.ValueIdx
import Idealize.ShloMosaic.Lib.StableHlo.Run

noncomputable section

open scoped BigOperators

namespace Cert.So2KerHost

open Idealize.ShloMosaic Idealize.ShloMosaic.TcCoe Idealize.ShloMosaic.ValueIdx Cert.So2Spec
open Cert.KernelIdeal Cert.KernelIdeal.Gen

variable (m : (ℓ : Loc nD τ sig) → Buf (Elt Ideal) ℓ)

/-- The transposed weights of m = 0. -/
theorem host_w0 (c : Dev nD) (k : Fin 896) (n : Fin 1024) :
    (V m c main_v1 : S896x1024.Idx → EReal) (ix2 k n)
      = at2 (m ((c : Thread nD τ).loc main_arg2) : S1024x896.Idx → EReal) n.val k.val := by
  have e : (V m c main_v1 : S896x1024.Idx → EReal)
      = (truncf (F := Ideal) .bf16 (transpose S896x1024 [1, 0] (m ((c : Thread nD τ).loc main_arg2) : FVec Ideal S1024x896 .f32) transposes_S1024x896_S896x1024_1_0 : FVec Ideal S896x1024 .f32) bitsLt_bf16_f32 : FVec Ideal S896x1024 .bf16) := by
    dsimp only [V, hostOps0]
    after_results
  rw [e, truncf_apply]
  refine (transpose_apply [1, 0] _ transposes_S1024x896_S896x1024_1_0 (ix2 k n) (ix2 n k) (fun b => match b with
    | ⟨0, _⟩ => rfl
    | ⟨1, _⟩ => rfl)).trans ?_
  exact at2_ix _ n k n.val k.val rfl rfl

/-- The bias as one row. -/
theorem host_b (c : Dev nD) (n : Fin 1024) :
    (V m c main_v2 : S1x1024.Idx → EReal) (ix2 (0 : Fin 1) n)
      = at1 (m ((c : Thread nD τ).loc main_arg3) : S1024.Idx → EReal) n.val := by
  have e : (V m c main_v2 : S1x1024.Idx → EReal)
      = (shapeCast S1x1024 (m ((c : Thread nD τ).loc main_arg3) : FVec Ideal S1024 .f32) shapeCasts_S1024_S1x1024 : FVec Ideal S1x1024 .f32) := by
    dsimp only [V, hostOps0]
    after_results
    rfl
  rw [e]
  refine (shapeCast_apply _ shapeCasts_S1024_S1x1024 (ix2 (0 : Fin 1) n) (ix1 n) ?_).trans ?_
  · rw [Shape.rowMajor_val_one, Shape.rowMajor_val_two]
    show n.val = (0 : Fin 1).val * 1024 + n.val
    simp
  · exact at1_ix _ n n.val rfl

/-- The block matrix of m = 1. -/
theorem host_w1 (c : Dev nD) (k n : Fin 1536) :
    (V m c main_v11 : S1536x1536.Idx → EReal) (ix2 k n)
      = blockT (m ((c : Thread nD τ).loc main_arg4) : S768x768.Idx → EReal)
          (m ((c : Thread nD τ).loc main_arg5) : S768x768.Idx → EReal) k.val n.val := by
  have e : (V m c main_v11 : S1536x1536.Idx → EReal)
      = (truncf (F := Ideal) .bf16
          (concatenate S1536x1536 0
            [⟨S768x1536, concatenate S768x1536 1
                [⟨S768x768, transpose S768x768 [1, 0] (m ((c : Thread nD τ).loc main_arg4) : FVec Ideal S768x768 .f32) transposes_S768x768_S768x768_1_0⟩,
                 ⟨S768x768, transpose S768x768 [1, 0] (m ((c : Thread nD τ).loc main_arg5) : FVec Ideal S768x768 .f32) transposes_S768x768_S768x768_1_0⟩]
                concatenates_S768x768_S768x768_S768x1536_d1⟩,
             ⟨S768x1536, concatenate S768x1536 1
                [⟨S768x768, Host.negf (F := Ideal) (transpose S768x768 [1, 0] (m ((c : Thread nD τ).loc main_arg5) : FVec Ideal S768x768 .f32) transposes_S768x768_S768x768_1_0 : FVec Ideal S768x768 .f32)⟩,
                 ⟨S768x768, transpose S768x768 [1, 0] (m ((c : Thread nD τ).loc main_arg4) : FVec Ideal S768x768 .f32) transposes_S768x768_S768x768_1_0⟩]
                concatenates_S768x768_S768x768_S768x1536_d1⟩]
            concatenates_S768x1536_S768x1536_S1536x1536_d0 : FVec Ideal S1536x1536 .f32)
          bitsLt_bf16_f32 : FVec Ideal S1536x1536 .bf16) := by
    dsimp only [V, hostOps0]
    after_results
  rw [e, truncf_apply]
  exact Cert.So2BlockMat.blockT_ker concatenates_S768x768_S768x768_S768x1536_d1
    concatenates_S768x1536_S768x1536_S1536x1536_d0 transposes_S768x768_S768x768_1_0 _ _ k n

/-- The block matrix of m = 2. -/
theorem host_w2 (c : Dev nD) (k n : Fin 1280) :
    (V m c main_v20 : S1280x1280.Idx → EReal) (ix2 k n)
      = blockT (m ((c : Thread nD τ).loc main_arg6) : S640x640.Idx → EReal)
          (m ((c : Thread nD τ).loc main_arg7) : S640x640.Idx → EReal) k.val n.val := by
  have e : (V m c main_v20 : S1280x1280.Idx → EReal)
      = (truncf (F := Ideal) .bf16
          (concatenate S1280x1280 0
            [⟨S640x1280, concatenate S640x1280 1
                [⟨S640x640, transpose S640x640 [1, 0] (m ((c : Thread nD τ).loc main_arg6) : FVec Ideal S640x640 .f32) transposes_S640x640_S640x640_1_0⟩,
                 ⟨S640x640, transpose S640x640 [1, 0] (m ((c : Thread nD τ).loc main_arg7) : FVec Ideal S640x640 .f32) transposes_S640x640_S640x640_1_0⟩]
                concatenates_S640x640_S640x640_S640x1280_d1⟩,
             ⟨S640x1280, concatenate S640x1280 1
                [⟨S640x640, Host.negf (F := Ideal) (transpose S640x640 [1, 0] (m ((c : Thread nD τ).loc main_arg7) : FVec Ideal S640x640 .f32) transposes_S640x640_S640x640_1_0 : FVec Ideal S640x640 .f32)⟩,
                 ⟨S640x640, transpose S640x640 [1, 0] (m ((c : Thread nD τ).loc main_arg6) : FVec Ideal S640x640 .f32) transposes_S640x640_S640x640_1_0⟩]
                concatenates_S640x640_S640x640_S640x1280_d1⟩]
            concatenates_S640x1280_S640x1280_S1280x1280_d0 : FVec Ideal S1280x1280 .f32)
          bitsLt_bf16_f32 : FVec Ideal S1280x1280 .bf16) := by
    dsimp only [V, hostOps0]
    after_results_simp
    rfl
  rw [e, truncf_apply]
  exact Cert.So2BlockMat.blockT_ker concatenates_S640x640_S640x640_S640x1280_d1
    concatenates_S640x1280_S640x1280_S1280x1280_d0 transposes_S640x640_S640x640_1_0 _ _ k n

end Cert.So2KerHost

end
-- ==== Proof.KerBlocks.lean ====
/-
  The kernel's two result arrays are the specification's.

  The call runs the body at 250 grid points; point t works on edges 200 t … 200 t + 199: its blocks of x, xe and of
  both results are rows 200 t … of their arrays, and the four weight operands are whole arrays at every point. Entry j
  of a block of x is x[200 t + j0, j1, j2]; the body loads sub-rectangles of the blocks, so a loaded piece holds the
  array's entries for those edges at shifted rows or columns. With the body's values read at one entry (the m = 0,
  m = 1 and m = 2 modules) and the host-prepared weights read at one entry, what point t writes back is block t of
  the specification's arrays; the blocks tile both results, so after the run each result is the specification's.
-/
import proofs.«144432_j48782238548458_1_alg».proof.Proof.Spec
import proofs.«144432_j48782238548458_1_alg».proof.Proof.Gen.KernelIdeal.Value
import proofs.«144432_j48782238548458_1_alg».proof.Proof.KerPay0
import proofs.«144432_j48782238548458_1_alg».proof.Proof.KerPay1
import proofs.«144432_j48782238548458_1_alg».proof.Proof.KerPay2
import proofs.«144432_j48782238548458_1_alg».proof.Proof.KerHost
import Idealize.ShloMosaic.Lib.Pipeline.Value

noncomputable section

open scoped BigOperators

namespace Cert.So2KerBlocks

open Idealize.ShloMosaic Idealize.ShloMosaic.TcCoe Idealize.ShloMosaic.ValueIdx Idealize.SL.Sem Cert.So2Spec
open Cert.KernelIdeal Cert.KernelIdeal.Gen
open Idealize.ShloMosaic.Pipeline (Dat)

/-! ## Small facts -/

theorem hz2 : (![0, 0] : Fin 2 → Nat) = fun _ => 0 :=
  funext fun a => match a with | ⟨0, _⟩ => rfl | ⟨1, _⟩ => rfl

theorem hz3 : (![0, 0, 0] : Fin 3 → Nat) = fun _ => 0 :=
  funext fun a => match a with | ⟨0, _⟩ => rfl | ⟨1, _⟩ => rfl | ⟨2, _⟩ => rfl

theorem at2_congr {n0 n1 : Nat} (x : (⟨2, ![n0, n1]⟩ : Shape).Idx → EReal) {a a' b b' : Nat} (ha : a = a') (hb : b = b') :
    at2 x a b = at2 x a' b' := by subst ha; subst hb; rfl

theorem at3_congr {n0 n1 n2 : Nat} (x : (⟨3, ![n0, n1, n2]⟩ : Shape).Idx → EReal) {a a' b b' c c' : Nat}
    (ha : a = a') (hb : b = b') (hc : c = c') : at3 x a b c = at3 x a' b' c' := by subst ha; subst hb; subst hc; rfl

/-! ## One grid point: the body's two stores from blocks that hold the arrays' entries for edges E … E + 199 -/

section Point

variable (x0 : Vec Ideal S200x29x128 .f32) (x1 : Vec Ideal S200x2304 .f32) (x2 : Vec Ideal S896x1024 .bf16)
  (x3 : Vec Ideal S1x1024 .f32) (x4 : Vec Ideal S1536x1536 .bf16) (x5 : Vec Ideal S1280x1280 .bf16)
  (x : SX.Idx → EReal) (xe : SXE.Idx → EReal) (w0 : SW0.Idx → EReal) (b : SB.Idx → EReal)
  (w11 w21 : SW1.Idx → EReal) (w12 w22 : SW2.Idx → EReal) (E : Nat)
  (hx0 : ∀ j : S200x29x128.Idx, x0 j = at3 x (E + (j 0).val) (j 1).val (j 2).val)
  (hx1 : ∀ j : S200x2304.Idx, x1 j = at2 xe (E + (j 0).val) (j 1).val)
  (hx2 : ∀ (k : Fin 896) (n : Fin 1024), x2 (ix2 k n) = at2 w0 n.val k.val)
  (hx3 : ∀ n : Fin 1024, x3 (ix2 (0 : Fin 1) n) = at1 b n.val)
  (hx4 : ∀ k n : Fin 1536, x4 (ix2 k n) = blockT w11 w21 k.val n.val)
  (hx5 : ∀ k n : Fin 1280, x5 (ix2 k n) = blockT w12 w22 k.val n.val)

include hx0 hx1 hx2 hx3 in
/-- The gate block: entry j is output j1 of the affine map at edge E + j0. -/
theorem out7_of (j : S200x128.Idx) :
    out0_7 x0 x1 x2 x3 x4 x5 j = H0 x xe w0 b (E + (j 0).val) (j 1).val := by
  unfold out0_7
  rw [View.canon_unit_zero hz2]
  refine (congrArg _ (eq_ix2 j)).trans ?_
  refine Cert.So2KerPay0.pay3_at _ _ _ _ x xe w0 b E ?_ ?_ ?_ ?_ (j 0) (j 1)
  · intro r l c
    exact (hx0 _).trans (at3_congr x (by show E + (0 + 1 * r.val) = _; omega) (by show 0 + 1 * l.val = _; omega)
      (by show 0 + 1 * c.val = _; omega))
  · intro r k
    exact (hx1 _).trans (at2_congr xe (by show E + (0 + 1 * r.val) = _; omega) (by show 0 + 1 * k.val = _; omega))
  · intro k n
    exact (congrFun (View.ld_unit_zero (S := S896x1024) hz2 _ x2) _).trans (hx2 k n)
  · intro n
    exact (congrFun (View.ld_unit_zero (S := S1x1024) hz2 _ x3) _).trans (hx3 n)

include hx0 hx1 hx2 hx3 hx4 hx5 in
/-- The output block: entry j is the specification's value at edge E + j0, row j1, channel j2. -/
theorem out6_of (j : S200x29x128.Idx) :
    out0_6 x0 x1 x2 x3 x4 x5 j = outAt x xe w0 b w11 w21 w12 w22 (E + (j 0).val) (j 1).val (j 2).val := by
  unfold out0_6
  rw [View.canon_unit_zero hz3]
  refine (congrArg _ (eq_ix3 j)).trans ?_
  have h16 : ∀ (r : Fin 200) (l : Fin 6) (c : Fin 128), View.ld x0 r0_5 (ix3 r l c) = at3 x (E + r.val) (7 + l.val) c.val :=
    fun r l c => (hx0 _).trans (at3_congr x (by show E + (0 + 1 * r.val) = _; omega) (by show 7 + 1 * l.val = _; omega)
      (by show 0 + 1 * c.val = _; omega))
  have h18 : ∀ (r : Fin 200) (l : Fin 6) (c : Fin 128), View.ld x0 r0_6 (ix3 r l c) = at3 x (E + r.val) (13 + l.val) c.val :=
    fun r l c => (hx0 _).trans (at3_congr x (by show E + (0 + 1 * r.val) = _; omega) (by show 13 + 1 * l.val = _; omega)
      (by show 0 + 1 * c.val = _; omega))
  have h20 : ∀ (r : Fin 200) (k : Fin 768), View.ld x1 r0_7 (ix2 r k) = at2 xe (E + r.val) (896 + k.val) :=
    fun r k => (hx1 _).trans (at2_congr xe (by show E + (0 + 1 * r.val) = _; omega) (by show 896 + 1 * k.val = _; omega))
  have h25 : ∀ (k n : Fin 1536), View.ld x4 r0_8 (ix2 k n) = blockT w11 w21 k.val n.val :=
    fun k n => (congrFun (View.ld_unit_zero (S := S1536x1536) hz2 _ x4) _).trans (hx4 k n)
  refine Cert.So2KerPay2.pay1_at _ _ _ _ _ _ _ x xe w0 b w11 w21 w12 w22 E ?_ ?_ ?_ ?_ ?_ ?_ ?_ (j 0) (j 1) (j 2)
  · intro r l c
    refine Cert.So2KerPay0.pay4_at _ _ _ _ x xe w0 b E ?_ ?_ ?_ ?_ r l c
    · intro r l c
      exact (hx0 _).trans (at3_congr x (by show E + (0 + 1 * r.val) = _; omega) (by show 0 + 1 * l.val = _; omega)
        (by show 0 + 1 * c.val = _; omega))
    · intro r k
      exact (hx1 _).trans (at2_congr xe (by show E + (0 + 1 * r.val) = _; omega) (by show 0 + 1 * k.val = _; omega))
    · intro k n
      exact (congrFun (View.ld_unit_zero (S := S896x1024) hz2 _ x2) _).trans (hx2 k n)
    · intro n
      exact (congrFun (View.ld_unit_zero (S := S1x1024) hz2 _ x3) _).trans (hx3 n)
  · intro r l c
    exact Cert.So2KerPay1.pay6_at _ _ _ _ x xe w11 w21 E h16 h18 h20 h25 r l c
  · intro r l c
    exact Cert.So2KerPay1.pay7_at _ _ _ _ x xe w11 w21 E h16 h18 h20 h25 r l c
  · intro r l c
    exact (hx0 _).trans (at3_congr x (by show E + (0 + 1 * r.val) = _; omega) (by show 19 + 1 * l.val = _; omega)
      (by show 0 + 1 * c.val = _; omega))
  · intro r l c
    exact (hx0 _).trans (at3_congr x (by show E + (0 + 1 * r.val) = _; omega) (by show 24 + 1 * l.val = _; omega)
      (by show 0 + 1 * c.val = _; omega))
  · intro r k
    exact (hx1 _).trans (at2_congr xe (by show E + (0 + 1 * r.val) = _; omega) (by show 1664 + 1 * k.val = _; omega))
  · intro k n
    exact (congrFun (View.ld_unit_zero (S := S1280x1280) hz2 _ x5) _).trans (hx5 k n)

end Point

/-! ## The grid: which block each point works on -/

/-- The block indices of every window at point t: the edge axis of x, xe and both results is at block t; every other
    axis, and the four weight operands, at block 0 (decided over the 250 points). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 2) = t.val ∧ win0_7.index t (1 : Fin 2) = 0 :=
  (by decide +kernel : ∀ t : Fin grid0.N, _)

variable (m : (ℓ : Loc nD τ sig) → Buf (Elt Ideal) ℓ) (ρ : Dev nD → PrngReg)

/-- The eight argument arrays of core c as launched. -/
abbrev A0 (c : Dev nD) : SX.Idx → EReal := m ((c : Thread nD τ).loc main_arg0)
abbrev A1 (c : Dev nD) : SXE.Idx → EReal := m ((c : Thread nD τ).loc main_arg1)
abbrev A2 (c : Dev nD) : SW0.Idx → EReal := m ((c : Thread nD τ).loc main_arg2)
abbrev A3 (c : Dev nD) : SB.Idx → EReal := m ((c : Thread nD τ).loc main_arg3)
abbrev A4 (c : Dev nD) : SW1.Idx → EReal := m ((c : Thread nD τ).loc main_arg4)
abbrev A5 (c : Dev nD) : SW1.Idx → EReal := m ((c : Thread nD τ).loc main_arg5)
abbrev A6 (c : Dev nD) : SW2.Idx → EReal := m ((c : Thread nD τ).loc main_arg6)
abbrev A7 (c : Dev nD) : SW2.Idx → EReal := m ((c : Thread nD τ).loc main_arg7)

/-! ## The input blocks at point t -/

/-- Entry j of the block of x at point t is x[200 t + j0, j1, j2]. -/
theorem blk0_at (c : Dev nD) (t : Fin cfg0.N) (j : S200x29x128.Idx) :
    iblk m c 0 t j = at3 (A0 m c) (200 * t.val + (j 0).val) (j 1).val (j 2).val := by
  obtain ⟨e0, e1, e2, -⟩ := idx_facts t
  show V m c main_arg0 (((cfg0.win 0).blk t).view.emb j) = _
  rw [V_main_arg0]
  refine at3_of (n0 := 50000) (n1 := 29) (n2 := 128) (A0 m c) _ _ _ _ ?_ ?_ ?_
  · show win0_0.index t (0 : Fin 3) * 200 + 1 * (j 0).val = _; omega
  · show win0_0.index t (1 : Fin 3) * 29 + 1 * (j 1).val = _; omega
  · show win0_0.index t (2 : Fin 3) * 128 + 1 * (j 2).val = _; omega

/-- Entry j of the block of xe at point t is xe[200 t + j0, j1]. -/
theorem blk1_at (c : Dev nD) (t : Fin cfg0.N) (j : S200x2304.Idx) :
    iblk m c 1 t j = at2 (A1 m c) (200 * t.val + (j 0).val) (j 1).val := by
  obtain ⟨-, -, -, e0, e1, -⟩ := idx_facts t
  show V m c main_arg1 (((cfg0.win 1).blk t).view.emb j) = _
  rw [V_main_arg1]
  refine at2_of (n0 := 50000) (n1 := 2304) (A1 m c) _ _ _ ?_ ?_
  · show win0_1.index t (0 : Fin 2) * 200 + 1 * (j 0).val = _; omega
  · show win0_1.index t (1 : Fin 2) * 2304 + 1 * (j 1).val = _; omega

/-- The transposed weights of m = 0, whole at every point. -/
theorem blk2_at (c : Dev nD) (t : Fin cfg0.N) (k : Fin 896) (n : Fin 1024) :
    iblk m c 2 t (ix2 k n) = at2 (A2 m c) n.val k.val := by
  obtain ⟨-, -, -, -, -, e0, e1, -⟩ := idx_facts t
  show (V m c main_v1 : S896x1024.Idx → EReal) (((cfg0.win 2).blk t).view.emb (ix2 k n)) = _
  refine Eq.trans (congrArg (V m c main_v1 : S896x1024.Idx → EReal) (funext fun a => Fin.ext ?_)) (Cert.So2KerHost.host_w0 m c k n)
  match a with
  | ⟨0, _⟩ => show win0_2.index t (0 : Fin 2) * 896 + 1 * k.val = k.val; omega
  | ⟨1, _⟩ => show win0_2.index t (1 : Fin 2) * 1024 + 1 * n.val = n.val; omega

/-- The bias row, whole at every point. -/
theorem blk3_at (c : Dev nD) (t : Fin cfg0.N) (n : Fin 1024) :
    iblk m c 3 t (ix2 (0 : Fin 1) n) = at1 (A3 m c) n.val := by
  obtain ⟨-, -, -, -, -, -, -, e0, e1, -⟩ := idx_facts t
  show (V m c main_v2 : S1x1024.Idx → EReal) (((cfg0.win 3).blk t).view.emb (ix2 (0 : Fin 1) n)) = _
  refine Eq.trans (congrArg (V m c main_v2 : S1x1024.Idx → EReal) (funext fun a => Fin.ext ?_)) (Cert.So2KerHost.host_b m c n)
  match a with
  | ⟨0, _⟩ => show win0_3.index t (0 : Fin 2) * 1 + 1 * 0 = 0; omega
  | ⟨1, _⟩ => show win0_3.index t (1 : Fin 2) * 1024 + 1 * n.val = n.val; omega

/-- The block matrix of m = 1, whole at every point. -/
theorem blk4_at (c : Dev nD) (t : Fin cfg0.N) (k n : Fin 1536) :
    iblk m c 4 t (ix2 k n) = blockT (A4 m c) (A5 m c) k.val n.val := by
  obtain ⟨-, -, -, -, -, -, -, -, -, e0, e1, -⟩ := idx_facts t
  show (V m c main_v11 : S1536x1536.Idx → EReal) (((cfg0.win 4).blk t).view.emb (ix2 k n)) = _
  refine Eq.trans (congrArg (V m c main_v11 : S1536x1536.Idx → EReal) (funext fun a => Fin.ext ?_)) (Cert.So2KerHost.host_w1 m c k n)
  match a with
  | ⟨0, _⟩ => show win0_4.index t (0 : Fin 2) * 1536 + 1 * k.val = k.val; omega
  | ⟨1, _⟩ => show win0_4.index t (1 : Fin 2) * 1536 + 1 * n.val = n.val; omega

/-- The block matrix of m = 2, whole at every point. -/
theorem blk5_at (c : Dev nD) (t : Fin cfg0.N) (k n : Fin 1280) :
    iblk m c 5 t (ix2 k n) = blockT (A6 m c) (A7 m c) k.val n.val := by
  obtain ⟨-, -, -, -, -, -, -, -, -, -, -, e0, e1, -⟩ := idx_facts t
  show (V m c main_v20 : S1280x1280.Idx → EReal) (((cfg0.win 5).blk t).view.emb (ix2 k n)) = _
  refine Eq.trans (congrArg (V m c main_v20 : S1280x1280.Idx → EReal) (funext fun a => Fin.ext ?_)) (Cert.So2KerHost.host_w2 m c k n)
  match a with
  | ⟨0, _⟩ => show win0_5.index t (0 : Fin 2) * 1280 + 1 * k.val = k.val; omega
  | ⟨1, _⟩ => show win0_5.index t (1 : Fin 2) * 1280 + 1 * n.val = n.val; omega

/-! ## What each point writes back -/

theorem outAt_congr (x : SX.Idx → EReal) (xe : SXE.Idx → EReal) (w0 : SW0.Idx → EReal) (b : SB.Idx → EReal)
    (w11 w21 : SW1.Idx → EReal) (w12 w22 : SW2.Idx → EReal) {e e' l l' c c' : Nat} (he : e = e') (hl : l = l') (hc : c = c') :
    outAt x xe w0 b w11 w21 w12 w22 e l c = outAt x xe w0 b w11 w21 w12 w22 e' l' c' := by
  subst he; subst hl; subst hc; rfl

theorem H0_congr (x : SX.Idx → EReal) (xe : SXE.Idx → EReal) (w0 : SW0.Idx → EReal) (b : SB.Idx → EReal)
    {e e' n n' : Nat} (he : e = e') (hn : n = n') : H0 x xe w0 b e n = H0 x xe w0 b e' n' := by
  subst he; subst hn; rfl

/-- Point t writes back block t of the specification's main result. -/
theorem flushed6_eq (c : Dev nD) (t : Fin cfg0.N) :
    (dats m 0 c).flushed 6 t = ((cfg0.win 6).blk t).view.read (Elt Ideal) (Gout (A0 m c) (A1 m c) (A2 m c) (A3 m c) (A4 m c) (A5 m c) (A6 m c) (A7 m c)) := by
  rw [Cert.KernelIdeal.Value.flushed6]
  obtain ⟨-, -, -, -, -, -, -, -, -, -, -, -, -, e0, e1, e2, -⟩ := idx_facts t
  funext j
  show out0_6 (iblk m c 0 t) (iblk m c 1 t) (iblk m c 2 t) (iblk m c 3 t) (iblk m c 4 t) (iblk m c 5 t) j
    = Gout (A0 m c) (A1 m c) (A2 m c) (A3 m c) (A4 m c) (A5 m c) (A6 m c) (A7 m c) (((cfg0.win 6).blk t).view.emb j)
  refine (out6_of _ _ _ _ _ _ (A0 m c) (A1 m c) (A2 m c) (A3 m c) (A4 m c) (A5 m c) (A6 m c) (A7 m c) (200 * t.val) (blk0_at m c t) (blk1_at m c t) (blk2_at m c t)
    (blk3_at m c t) (blk4_at m c t) (blk5_at m c t) j).trans ?_
  refine outAt_congr _ _ _ _ _ _ _ _ ?_ ?_ ?_
  · show _ = win0_6.index t (0 : Fin 3) * 200 + 1 * (j 0).val; omega
  · show _ = win0_6.index t (1 : Fin 3) * 29 + 1 * (j 1).val; omega
  · show _ = win0_6.index t (2 : Fin 3) * 128 + 1 * (j 2).val; omega

/-- Point t writes back block t of the specification's gate result. -/
theorem flushed7_eq (c : Dev nD) (t : Fin cfg0.N) :
    (dats m 0 c).flushed 7 t = ((cfg0.win 7).blk t).view.read (Elt Ideal) (Ggate (A0 m c) (A1 m c) (A2 m c) (A3 m c)) := by
  rw [Cert.KernelIdeal.Value.flushed7]
  obtain ⟨-, -, -, -, -, -, -, -, -, -, -, -, -, -, -, -, e0, e1⟩ := idx_facts t
  funext j
  show out0_7 (iblk m c 0 t) (iblk m c 1 t) (iblk m c 2 t) (iblk m c 3 t) (iblk m c 4 t) (iblk m c 5 t) j
    = Ggate (A0 m c) (A1 m c) (A2 m c) (A3 m c) (((cfg0.win 7).blk t).view.emb j)
  refine (out7_of _ _ _ _ _ _ (A0 m c) (A1 m c) (A2 m c) (A3 m c) (200 * t.val) (blk0_at m c t) (blk1_at m c t) (blk2_at m c t)
    (blk3_at m c t) j).trans ?_
  refine H0_congr _ _ _ _ ?_ ?_
  · show _ = win0_7.index t (0 : Fin 2) * 200 + 1 * (j 0).val; omega
  · show _ = win0_7.index t (1 : Fin 2) * 128 + 1 * (j 1).val; omega

/-! ## The blocks tile both results -/

/-- An index of the main result is in point t's block iff each coordinate is in the block's range on its axis. -/
theorem mem_blk6 (t : Fin cfg0.N) (i : S50000x29x128.Idx) :
    i ∈ ((cfg0.win 6).blk t).view.set ↔ ∀ a : Fin 3, win0_6.index t a * S200x29x128.size a ≤ (i a).val ∧ (i a).val < win0_6.index t a * S200x29x128.size a + S200x29x128.size a := by
  show i ∈ ((View.whole main_v21_0).slice (win0_6.rect t)).set ↔ _
  rw [View.set_slice_whole, Rect.mem_set_unit]
  exact Iff.rfl

/-- The same for the gate result. -/
theorem mem_blk7 (t : Fin cfg0.N) (i : S50000x128.Idx) :
    i ∈ ((cfg0.win 7).blk t).view.set ↔ ∀ a : Fin 2, win0_7.index t a * S200x128.size a ≤ (i a).val ∧ (i a).val < win0_7.index t a * S200x128.size a + S200x128.size a := by
  show i ∈ ((View.whole main_v21_1).slice (win0_7.rect t)).set ↔ _
  rw [View.set_slice_whole, Rect.mem_set_unit]
  exact Iff.rfl

/-- Edge e lies in the block of point e / 200. -/
theorem cover6 (i : S50000x29x128.Idx) :
    ∃ t : Fin cfg0.N, (cfg0.win 6).flush t = true ∧ i ∈ ((cfg0.win 6).blk t).view.set := by
  have h0 : (i 0).val < 50000 := (i 0).isLt
  have h1 : (i 1).val < 29 := (i 1).isLt
  have h2 : (i 2).val < 128 := (i 2).isLt
  have ht : (i 0).val / 200 < cfg0.N := by show (i 0).val / 200 < grid0.N; rw [N_0]; omega
  obtain ⟨-, -, -, -, -, -, -, -, -, -, -, -, -, e0, e1, e2, -⟩ := idx_facts ⟨(i 0).val / 200, ht⟩
  refine ⟨⟨(i 0).val / 200, ht⟩, flush0_6 _, ?_⟩
  rw [mem_blk6]
  intro a
  match a with
  | ⟨0, _⟩ =>
    show win0_6.index ⟨(i 0).val / 200, ht⟩ (0 : Fin 3) * 200 ≤ (i 0).val ∧ (i 0).val < win0_6.index ⟨(i 0).val / 200, ht⟩ (0 : Fin 3) * 200 + 200
    rw [e0]; show (i 0).val / 200 * 200 ≤ (i 0).val ∧ (i 0).val < (i 0).val / 200 * 200 + 200; omega
  | ⟨1, _⟩ =>
    show win0_6.index ⟨(i 0).val / 200, ht⟩ (1 : Fin 3) * 29 ≤ (i 1).val ∧ (i 1).val < win0_6.index ⟨(i 0).val / 200, ht⟩ (1 : Fin 3) * 29 + 29
    rw [e1]; omega
  | ⟨2, _⟩ =>
    show win0_6.index ⟨(i 0).val / 200, ht⟩ (2 : Fin 3) * 128 ≤ (i 2).val ∧ (i 2).val < win0_6.index ⟨(i 0).val / 200, ht⟩ (2 : Fin 3) * 128 + 128
    rw [e2]; omega

/-- The same for the gate result. -/
theorem cover7 (i : S50000x128.Idx) :
    ∃ t : Fin cfg0.N, (cfg0.win 7).flush t = true ∧ i ∈ ((cfg0.win 7).blk t).view.set := by
  have h0 : (i 0).val < 50000 := (i 0).isLt
  have h1 : (i 1).val < 128 := (i 1).isLt
  have ht : (i 0).val / 200 < cfg0.N := by show (i 0).val / 200 < grid0.N; rw [N_0]; omega
  obtain ⟨-, -, -, -, -, -, -, -, -, -, -, -, -, -, -, -, e0, e1⟩ := idx_facts ⟨(i 0).val / 200, ht⟩
  refine ⟨⟨(i 0).val / 200, ht⟩, flush0_7 _, ?_⟩
  rw [mem_blk7]
  intro a
  match a with
  | ⟨0, _⟩ =>
    show win0_7.index ⟨(i 0).val / 200, ht⟩ (0 : Fin 2) * 200 ≤ (i 0).val ∧ (i 0).val < win0_7.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_7.index ⟨(i 0).val / 200, ht⟩ (1 : Fin 2) * 128 ≤ (i 1).val ∧ (i 1).val < win0_7.index ⟨(i 0).val / 200, ht⟩ (1 : Fin 2) * 128 + 128
    rw [e1]; omega

/-! ## The two results after the run -/

/-- The main result after the run is the specification's. -/
theorem final6 (c : Dev nD) : (dats m 0 c).arrAt 6 cfg0.N = Gout (A0 m c) (A1 m c) (A2 m c) (A3 m c) (A4 m c) (A5 m c) (A6 m c) (A7 m c) :=
  (dats m 0 c).arrAt_eq_of_cover 6 _ (fun t _ => flushed6_eq m c t) cover6

/-- The gate result after the run is the specification's. -/
theorem final7 (c : Dev nD) : (dats m 0 c).arrAt 7 cfg0.N = Ggate (A0 m c) (A1 m c) (A2 m c) (A3 m c) :=
  (dats m 0 c).arrAt_eq_of_cover 7 _ (fun t _ => flushed7_eq m c t) cover7

/-- Every weakly fair execution of the kernel program terminates with both results at the specification's arrays of
    the arguments as launched, the arguments unchanged. -/
theorem run : θ_run defs (onTc (τ := τ) (main (F := Ideal))) ⟨m, fun _ => 0, ρ⟩ fun r => ∀ c : Dev nD,
      r.2.mem ((c : Thread nD τ).loc main_v21_0) = Gout (A0 m c) (A1 m c) (A2 m c) (A3 m c) (A4 m c) (A5 m c) (A6 m c) (A7 m c)
      ∧ r.2.mem ((c : Thread nD τ).loc main_v21_1) = Ggate (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final6 m c), (h c).2.1.trans (final7 m c), (h c).2.2⟩)
    (Cert.KernelIdeal.Value.run_blocks m ρ)

end Cert.So2KerBlocks

end
-- ==== Proof.RefM0.lean ====
/-
  The reference's m = 0 part is the specification's affine map.

  The first 7 coefficient rows of x, flattened to [50000, 896] and gated by the first 896 columns of xe, times the
  transpose of w0, plus the bias broadcast down the rows: entry (e, n) is H0 e n. Its first 128 columns are the
  gate result; the other 896, reshaped to [50000, 7, 128], are rows 0 … 6 of the main result.
-/
import proofs.«144432_j48782238548458_1_alg».proof.Proof.Spec
import proofs.«144432_j48782238548458_1_alg».proof.Proof.Gen.ReferenceIdeal.Read

noncomputable section

open scoped BigOperators

namespace Cert.So2RefM0

open Idealize.ShloMosaic Idealize.ShloMosaic.ValueIdx Cert.So2Spec
open Cert.ReferenceIdeal Cert.ReferenceIdeal.Read

/-- The gated operand of the product at an index with coordinates (e, k): the flat position k of the first 7
    coefficient rows is row k / 128, channel k % 128, and the gate is column k of xe. -/
theorem v9_at (x0 : (⟨S50000x29x128, .f32⟩ : BufTy).Contents (Elt Ideal)) (x1 : (⟨S50000x2304, .f32⟩ : BufTy).Contents (Elt Ideal))
    (i : S50000x896.Idx) (e k : Nat) (h0 : (i 0).val = e) (h1 : (i 1).val = k) :
    val_main_v9 (F := Ideal) x0 x1 i = gated0 x0 x1 e k := by
  have hi0 : (i 0).val < 50000 := (i 0).isLt
  have hi1 : (i 1).val < 896 := (i 1).isLt
  rw [val_main_v9_apply, val_main_v1_apply, val_main_v0_apply, val_main_v6_apply]
  unfold gated0
  show _ * _ = _ * _
  congr 1
  · exact at3_of x0 _ e (k / 128) (k % 128)
      (by show ((i 0).val * 896 + (i 1).val) / 896 = e; omega)
      (by show ((i 0).val * 896 + (i 1).val) / 128 % 7 = k / 128; omega)
      (by show ((i 0).val * 896 + (i 1).val) % 128 = k % 128; omega)
  · exact at2_of x1 _ e k (by show (i 0).val = e; omega) (by show (i 1).val = k; omega)

/-- The transposed weight at an index with coordinates (k, n) is w0[n, k]. -/
theorem v10_at (x2 : (⟨S1024x896, .f32⟩ : BufTy).Contents (Elt Ideal)) (i : S896x1024.Idx) (k n : Nat)
    (h0 : (i 0).val = k) (h1 : (i 1).val = n) :
    val_main_v10 (F := Ideal) x2 i = at2 x2 n k := by
  rw [val_main_v10_apply]
  exact at2_of x2 _ n k (by show (i 1).val = n; omega) (by show (i 0).val = k; omega)

/-- The bias broadcast down the rows at an index with second coordinate n is b[n]. -/
theorem v13_at (x3 : (⟨S1024, .f32⟩ : BufTy).Contents (Elt Ideal)) (i : S50000x1024.Idx) (n : Nat)
    (h1 : (i 1).val = n) :
    val_main_v13 (F := Ideal) x3 i = at1 x3 n := by
  rw [val_main_v13_apply, val_main_v12_apply]
  exact at1_of x3 _ n (by show (i 1).val = n; omega)

/-- The affine map's output at any index with coordinates (e, n). -/
theorem v14_at (x0 : (⟨S50000x29x128, .f32⟩ : BufTy).Contents (Elt Ideal)) (x1 : (⟨S50000x2304, .f32⟩ : BufTy).Contents (Elt Ideal)) (x2 : (⟨S1024x896, .f32⟩ : BufTy).Contents (Elt Ideal)) (x3 : (⟨S1024, .f32⟩ : BufTy).Contents (Elt Ideal))
    (i : S50000x1024.Idx) (e n : Nat) (h0 : (i 0).val = e) (h1 : (i 1).val = n) :
    val_main_v14 (F := Ideal) x0 x1 x2 x3 i = H0 x0 x1 x2 x3 e n := by
  rw [val_main_v14_apply, val_main_v11_apply]
  unfold H0
  show _ + _ = _ + _
  congr 1
  · refine Finset.sum_congr rfl fun k _ => ?_
    congr 1
    · exact v9_at x0 x1 _ e k.val (by show (i 0).val = e; omega) rfl
    · exact v10_at x2 _ k.val n rfl (by show (i 1).val = n; omega)
  · exact v13_at x3 i n h1

/-- Entry (e, n) of the affine map's output (before it is split). -/
theorem ref_h0 (x0 : (⟨S50000x29x128, .f32⟩ : BufTy).Contents (Elt Ideal)) (x1 : (⟨S50000x2304, .f32⟩ : BufTy).Contents (Elt Ideal)) (x2 : (⟨S1024x896, .f32⟩ : BufTy).Contents (Elt Ideal)) (x3 : (⟨S1024, .f32⟩ : BufTy).Contents (Elt Ideal)) (e : Fin 50000) (n : Fin 1024) :
    val_main_v14 (F := Ideal) x0 x1 x2 x3 (ix2 e n) = H0 x0 x1 x2 x3 e.val n.val :=
  v14_at x0 x1 x2 x3 (ix2 e n) e.val n.val rfl rfl

/-- The gate result is the specification's. -/
theorem ref_gate (x0 : (⟨S50000x29x128, .f32⟩ : BufTy).Contents (Elt Ideal)) (x1 : (⟨S50000x2304, .f32⟩ : BufTy).Contents (Elt Ideal)) (x2 : (⟨S1024x896, .f32⟩ : BufTy).Contents (Elt Ideal)) (x3 : (⟨S1024, .f32⟩ : BufTy).Contents (Elt Ideal)) :
    val_main_v15 (F := Ideal) x0 x1 x2 x3 = Ggate x0 x1 x2 x3 := by
  funext i
  rw [val_main_v15_apply]
  unfold Ggate
  exact v14_at x0 x1 x2 x3 _ (i 0).val (i 1).val rfl rfl

/-- Rows 0 … 6 of the main result: row l, channel c of edge e is output 128 + 128 l + c of the affine map. -/
theorem ref_rows0 (x0 : (⟨S50000x29x128, .f32⟩ : BufTy).Contents (Elt Ideal)) (x1 : (⟨S50000x2304, .f32⟩ : BufTy).Contents (Elt Ideal)) (x2 : (⟨S1024x896, .f32⟩ : BufTy).Contents (Elt Ideal)) (x3 : (⟨S1024, .f32⟩ : BufTy).Contents (Elt Ideal)) (e : Fin 50000) (l : Fin 7) (c : Fin 128) :
    val_main_v17 (F := Ideal) x0 x1 x2 x3 (ix3 e l c) = H0 x0 x1 x2 x3 e.val (128 + 128 * l.val + c.val) := by
  have he : e.val < 50000 := e.isLt
  have hl : l.val < 7 := l.isLt
  have hc : c.val < 128 := c.isLt
  rw [val_main_v17_apply, val_main_v16_apply]
  exact v14_at x0 x1 x2 x3 _ e.val (128 + 128 * l.val + c.val)
    (by show ((e.val * 7 + l.val) * 128 + c.val) / 896 = e.val; omega)
    (by show 128 + ((e.val * 7 + l.val) * 128 + c.val) % 896 = 128 + 128 * l.val + c.val; omega)

end Cert.So2RefM0

end
-- ==== Proof.RefM1.lean ====
/-
  The reference's m = 1 part is the specification's O1.

  Coefficient rows 7 … 18 of x, viewed as [50000, 2, 768] (real rows, imaginary rows), are gated by columns
  896 … 1663 of xe (the same 768 columns for both halves) and flattened to [50000, 1536]; the product with the
  transposed block matrix [[w1, -w2], [w2, w1]] has entry (e, n) equal to O1 e n. Viewed as [50000, 2, 6, 128], its
  two halves are the real and the imaginary result rows.
-/
import proofs.«144432_j48782238548458_1_alg».proof.Proof.Spec
import proofs.«144432_j48782238548458_1_alg».proof.Proof.Gen.ReferenceIdeal.Read
import proofs.«144432_j48782238548458_1_alg».proof.Proof.BlockMat

noncomputable section

open scoped BigOperators

namespace Cert.So2RefM1

open Idealize.ShloMosaic Idealize.ShloMosaic.ValueIdx Cert.So2Spec
open Cert.ReferenceIdeal Cert.ReferenceIdeal.Gen Cert.ReferenceIdeal.Read

/-- The gated, flattened input at any index with coordinates (e, k). -/
theorem v21_at (x0 : (⟨S50000x29x128, .f32⟩ : BufTy).Contents (Elt Ideal)) (x1 : (⟨S50000x2304, .f32⟩ : BufTy).Contents (Elt Ideal))
    (i : S50000x1536.Idx) (e k : Nat) (he : (i 0).val = e) (hk : (i 1).val = k) :
    val_main_v21 (F := Ideal) x0 x1 i = gatedM 7 896 768 x0 x1 e k := by
  have hi0 : (i 0).val < 50000 := (i 0).isLt
  have hi1 : (i 1).val < 1536 := (i 1).isLt
  rw [val_main_v21_apply]
  -- the index of the [50000, 2, 768] view: (e, k / 768, k % 768)
  have hj0 : (idx_main_v21 i 0).val = e := by
    show ((i 0).val * 1536 + (i 1).val) / 1536 = e; omega
  have hj1 : (idx_main_v21 i 1).val = k / 768 := by
    show ((i 0).val * 1536 + (i 1).val) / 768 % 2 = k / 768; omega
  have hj2 : (idx_main_v21 i 2).val = k % 768 := by
    show ((i 0).val * 1536 + (i 1).val) % 768 = k % 768; omega
  generalize idx_main_v21 i = j at hj0 hj1 hj2
  have hjb1 : (j 1).val < 2 := (j 1).isLt
  have hjb2 : (j 2).val < 768 := (j 2).isLt
  rw [val_main_v20_apply, val_main_v3_apply, val_main_v2_apply, val_main_v19_apply, val_main_v18_apply, val_main_v7_apply]
  unfold gatedM
  refine congrArg₂ (fun a b : EReal => a * b) ?_ ?_
  · -- rows 7 … 18 of x viewed as [50000, 12, 128]: row k / 128, channel k % 128
    refine at3_of x0 _ e (7 + k / 128) (k % 128) ?_ ?_ ?_
    · show (((j 0).val * 2 + (j 1).val) * 768 + (j 2).val) / 1536 = e; omega
    · show 7 + (((j 0).val * 2 + (j 1).val) * 768 + (j 2).val) / 128 % 12 = 7 + k / 128; omega
    · show (((j 0).val * 2 + (j 1).val) * 768 + (j 2).val) % 128 = k % 128; omega
  · -- column 896 + k % 768 of xe, for both halves
    refine at2_of x1 _ e (896 + k % 768) ?_ ?_
    · show (j 0).val = e; omega
    · show 896 + (j 2).val = 896 + k % 768; omega

/-- The transposed block matrix at any index with coordinates (k, n). -/
theorem v26_at (x4 x5 : (⟨S768x768, .f32⟩ : BufTy).Contents (Elt Ideal)) (k n : Fin 1536) :
    val_main_v26 (F := Ideal) x4 x5 (ix2 k n) = blockT x4 x5 k.val n.val := by
  unfold val_main_v26 val_main_v25 val_main_v24 val_main_v23 val_main_v22
  exact Cert.So2BlockMat.blockT_ref concatenates_S768x768_S768x768_S768x1536_d1 concatenates_S768x1536_S768x1536_S1536x1536_d0 transposes_S1536x1536_S1536x1536_1_0 x4 x5 k n

/-- The product at any index with coordinates (e, n). -/
theorem v27_at (x0 : (⟨S50000x29x128, .f32⟩ : BufTy).Contents (Elt Ideal)) (x1 : (⟨S50000x2304, .f32⟩ : BufTy).Contents (Elt Ideal)) (x4 x5 : (⟨S768x768, .f32⟩ : BufTy).Contents (Elt Ideal))
    (i : S50000x1536.Idx) (e n : Nat) (he : (i 0).val = e) (hn : (i 1).val = n) :
    val_main_v27 (F := Ideal) x0 x1 x4 x5 i = O1 x0 x1 x4 x5 e n := by
  subst he; subst hn
  rw [val_main_v27_apply]
  unfold O1
  refine Finset.sum_congr rfl fun k _ => ?_
  -- the left operand is read at (e, k), the right one at (k, n)
  have hr : ridx_main_v27 i k = ix2 k (⟨(i 1).val, (i 1).isLt⟩ : Fin 1536) := by
    funext a; match a with | ⟨0, _⟩ => rfl | ⟨1, _⟩ => rfl
  rw [v21_at x0 x1 (lidx_main_v27 i k) (i 0).val k.val rfl rfl, hr, v26_at]

/-- Entry (e, n) of the m = 1 product. -/
theorem ref_o1 (x0 : (⟨S50000x29x128, .f32⟩ : BufTy).Contents (Elt Ideal)) (x1 : (⟨S50000x2304, .f32⟩ : BufTy).Contents (Elt Ideal)) (x4 x5 : (⟨S768x768, .f32⟩ : BufTy).Contents (Elt Ideal)) (e : Fin 50000) (n : Fin 1536) :
    val_main_v27 (F := Ideal) x0 x1 x4 x5 (ix2 e n) = O1 x0 x1 x4 x5 e.val n.val :=
  v27_at x0 x1 x4 x5 (ix2 e n) e.val n.val rfl rfl

/-- The real result rows: row l, channel c of edge e is output 128 l + c. -/
theorem ref_rows1r (x0 : (⟨S50000x29x128, .f32⟩ : BufTy).Contents (Elt Ideal)) (x1 : (⟨S50000x2304, .f32⟩ : BufTy).Contents (Elt Ideal)) (x4 x5 : (⟨S768x768, .f32⟩ : BufTy).Contents (Elt Ideal)) (e : Fin 50000) (l : Fin 6) (c : Fin 128) :
    val_main_v30 (F := Ideal) x0 x1 x4 x5 (ix3 e l c) = O1 x0 x1 x4 x5 e.val (128 * l.val + c.val) := by
  have hE : e.val < 50000 := e.isLt
  have hL : l.val < 6 := l.isLt
  have hC : c.val < 128 := c.isLt
  rw [val_main_v30_apply]
  -- the index of the [50000, 1, 6, 128] view: (e, 0, l, c)
  have hp0 : (idx_main_v30 (ix3 e l c) 0).val = e.val := by
    show ((e.val * 6 + l.val) * 128 + c.val) / 768 = e.val; omega
  have hp1 : (idx_main_v30 (ix3 e l c) 1).val = 0 := rfl
  have hp2 : (idx_main_v30 (ix3 e l c) 2).val = l.val := by
    show ((e.val * 6 + l.val) * 128 + c.val) / 128 % 6 = l.val; omega
  have hp3 : (idx_main_v30 (ix3 e l c) 3).val = c.val := by
    show ((e.val * 6 + l.val) * 128 + c.val) % 128 = c.val; omega
  generalize idx_main_v30 (ix3 e l c) = p at hp0 hp1 hp2 hp3
  rw [val_main_v29_apply, val_main_v28_apply]
  -- flattened back to [50000, 1536]: (e, 128 l + c)
  refine v27_at x0 x1 x4 x5 _ e.val (128 * l.val + c.val) ?_ ?_
  · show ((((p 0).val * 2 + (p 1).val) * 6 + (p 2).val) * 128 + (p 3).val) / 1536 = e.val; omega
  · show ((((p 0).val * 2 + (p 1).val) * 6 + (p 2).val) * 128 + (p 3).val) % 1536 = 128 * l.val + c.val; omega

/-- The imaginary result rows: row l, channel c of edge e is output 768 + 128 l + c. -/
theorem ref_rows1i (x0 : (⟨S50000x29x128, .f32⟩ : BufTy).Contents (Elt Ideal)) (x1 : (⟨S50000x2304, .f32⟩ : BufTy).Contents (Elt Ideal)) (x4 x5 : (⟨S768x768, .f32⟩ : BufTy).Contents (Elt Ideal)) (e : Fin 50000) (l : Fin 6) (c : Fin 128) :
    val_main_v32 (F := Ideal) x0 x1 x4 x5 (ix3 e l c) = O1 x0 x1 x4 x5 e.val (768 + 128 * l.val + c.val) := by
  have hE : e.val < 50000 := e.isLt
  have hL : l.val < 6 := l.isLt
  have hC : c.val < 128 := c.isLt
  rw [val_main_v32_apply]
  -- the index of the [50000, 1, 6, 128] view: (e, 0, l, c)
  have hp0 : (idx_main_v32 (ix3 e l c) 0).val = e.val := by
    show ((e.val * 6 + l.val) * 128 + c.val) / 768 = e.val; omega
  have hp1 : (idx_main_v32 (ix3 e l c) 1).val = 0 := rfl
  have hp2 : (idx_main_v32 (ix3 e l c) 2).val = l.val := by
    show ((e.val * 6 + l.val) * 128 + c.val) / 128 % 6 = l.val; omega
  have hp3 : (idx_main_v32 (ix3 e l c) 3).val = c.val := by
    show ((e.val * 6 + l.val) * 128 + c.val) % 128 = c.val; omega
  generalize idx_main_v32 (ix3 e l c) = p at hp0 hp1 hp2 hp3
  rw [val_main_v31_apply, val_main_v28_apply]
  -- flattened back to [50000, 1536]: (e, 768 + 128 l + c)
  refine v27_at x0 x1 x4 x5 _ e.val (768 + 128 * l.val + c.val) ?_ ?_
  · show ((((p 0).val * 2 + (1 + (p 1).val)) * 6 + (p 2).val) * 128 + (p 3).val) / 1536 = e.val; omega
  · show ((((p 0).val * 2 + (1 + (p 1).val)) * 6 + (p 2).val) * 128 + (p 3).val) % 1536 = 768 + 128 * l.val + c.val; omega

end Cert.So2RefM1

end
-- ==== Proof.RefM2.lean ====
/-
  The reference's m = 2 part is the specification's O2.

  Coefficient rows 19 … 28 of x, viewed as [50000, 2, 640] (real rows, imaginary rows), are gated by columns
  1664 … 2303 of xe (the same 640 columns for both halves) and flattened to [50000, 1280]; the product with the
  transposed block matrix [[w1, -w2], [w2, w1]] has entry (e, n) equal to O2 e n. Viewed as [50000, 2, 5, 128], its
  two halves are the real and the imaginary result rows.
-/
import proofs.«144432_j48782238548458_1_alg».proof.Proof.Spec
import proofs.«144432_j48782238548458_1_alg».proof.Proof.Gen.ReferenceIdeal.Read
import proofs.«144432_j48782238548458_1_alg».proof.Proof.BlockMat

noncomputable section

open scoped BigOperators

namespace Cert.So2RefM2

open Idealize.ShloMosaic Idealize.ShloMosaic.ValueIdx Cert.So2Spec
open Cert.ReferenceIdeal Cert.ReferenceIdeal.Read

/-- The gated, flattened rows at (e, k): flat position k of rows 19 … 28 is row 19 + k / 128, channel k % 128, and
    the gate is column 1664 + k % 640 of xe. -/
theorem gated_ref (x0 : (⟨S50000x29x128, .f32⟩ : BufTy).Contents (Elt Ideal)) (x1 : (⟨S50000x2304, .f32⟩ : BufTy).Contents (Elt Ideal)) (e : Fin 50000) (k : Fin 1280) :
    val_main_v36 (F := Ideal) x0 x1 (ix2 e k) = gatedM 19 1664 640 x0 x1 e.val k.val := by
  have he : e.val < 50000 := e.isLt
  have hk : k.val < 1280 := k.isLt
  rw [val_main_v36_apply, val_main_v35_apply, val_main_v5_apply, val_main_v4_apply, val_main_v34_apply,
    val_main_v33_apply, val_main_v8_apply]
  unfold gatedM
  refine congrArg₂ (fun a b : EReal => a * b) ?_ ?_
  · refine at3_of x0 _ _ _ _ ?_ ?_ ?_
    · show ((((e.val * 1280 + k.val) / 1280) * 2 + ((e.val * 1280 + k.val) / 640 % 2)) * 640 + ((e.val * 1280 + k.val) % 640)) / 1280 = e.val
      omega
    · show 19 + ((((e.val * 1280 + k.val) / 1280) * 2 + ((e.val * 1280 + k.val) / 640 % 2)) * 640 + ((e.val * 1280 + k.val) % 640)) / 128 % 10 = 19 + k.val / 128
      omega
    · show ((((e.val * 1280 + k.val) / 1280) * 2 + ((e.val * 1280 + k.val) / 640 % 2)) * 640 + ((e.val * 1280 + k.val) % 640)) % 128 = k.val % 128
      omega
  · refine at2_of x1 _ _ _ ?_ ?_
    · show (e.val * 1280 + k.val) / 1280 = e.val
      omega
    · show 1664 + (e.val * 1280 + k.val) % 640 = 1664 + k.val % 640
      omega

/-- The transposed block matrix at (k, n). -/
theorem blockT_ref_v41 (x6 x7 : (⟨S640x640, .f32⟩ : BufTy).Contents (Elt Ideal)) (k n : Fin 1280) :
    val_main_v41 (F := Ideal) x6 x7 (ix2 k n) = blockT x6 x7 k.val n.val := by
  unfold val_main_v41 val_main_v40 val_main_v39 val_main_v38 val_main_v37
  exact Cert.So2BlockMat.blockT_ref Gen.concatenates_S640x640_S640x640_S640x1280_d1
    Gen.concatenates_S640x1280_S640x1280_S1280x1280_d0 Gen.transposes_S1280x1280_S1280x1280_1_0 x6 x7 k n

/-- Entry i of the m = 2 product, for an index i with coordinates (e, n). -/
theorem ref_o2_at (x0 : (⟨S50000x29x128, .f32⟩ : BufTy).Contents (Elt Ideal)) (x1 : (⟨S50000x2304, .f32⟩ : BufTy).Contents (Elt Ideal)) (x6 x7 : (⟨S640x640, .f32⟩ : BufTy).Contents (Elt Ideal)) (i : S50000x1280.Idx) (e n : Nat)
    (h0 : (i 0).val = e) (h1 : (i 1).val = n) :
    val_main_v42 (F := Ideal) x0 x1 x6 x7 i = O2 x0 x1 x6 x7 e n := by
  subst h0; subst h1
  rw [val_main_v42_apply]
  unfold O2
  refine Finset.sum_congr rfl fun k _ => ?_
  have el : lidx_main_v42 i k = ix2 (i 0) k := by
    funext a; match a with | ⟨0, _⟩ => rfl | ⟨1, _⟩ => rfl
  have er : ridx_main_v42 i k = ix2 k (i 1) := by
    funext a; match a with | ⟨0, _⟩ => rfl | ⟨1, _⟩ => rfl
  rw [el, er]
  exact congrArg₂ (fun a b : EReal => a * b) (gated_ref x0 x1 (i 0) k) (blockT_ref_v41 x6 x7 k (i 1))

/-- Entry (e, n) of the m = 2 product. -/
theorem ref_o2 (x0 : (⟨S50000x29x128, .f32⟩ : BufTy).Contents (Elt Ideal)) (x1 : (⟨S50000x2304, .f32⟩ : BufTy).Contents (Elt Ideal)) (x6 x7 : (⟨S640x640, .f32⟩ : BufTy).Contents (Elt Ideal)) (e : Fin 50000) (n : Fin 1280) :
    val_main_v42 (F := Ideal) x0 x1 x6 x7 (ix2 e n) = O2 x0 x1 x6 x7 e.val n.val :=
  ref_o2_at x0 x1 x6 x7 (ix2 e n) e.val n.val rfl rfl

/-- The real result rows: row l, channel c of edge e is output 128 l + c. -/
theorem ref_rows2r (x0 : (⟨S50000x29x128, .f32⟩ : BufTy).Contents (Elt Ideal)) (x1 : (⟨S50000x2304, .f32⟩ : BufTy).Contents (Elt Ideal)) (x6 x7 : (⟨S640x640, .f32⟩ : BufTy).Contents (Elt Ideal)) (e : Fin 50000) (l : Fin 5) (c : Fin 128) :
    val_main_v45 (F := Ideal) x0 x1 x6 x7 (ix3 e l c) = O2 x0 x1 x6 x7 e.val (128 * l.val + c.val) := by
  have he : e.val < 50000 := e.isLt
  have hl : l.val < 5 := l.isLt
  have hc : c.val < 128 := c.isLt
  rw [val_main_v45_apply, val_main_v44_apply, val_main_v43_apply]
  refine ref_o2_at x0 x1 x6 x7 _ _ _ ?_ ?_
  · show ((((((e.val * 5 + l.val) * 128 + c.val) / 640) * 2 + 0) * 5 + ((e.val * 5 + l.val) * 128 + c.val) / 128 % 5) * 128 + ((e.val * 5 + l.val) * 128 + c.val) % 128) / 1280 = e.val
    omega
  · show ((((((e.val * 5 + l.val) * 128 + c.val) / 640) * 2 + 0) * 5 + ((e.val * 5 + l.val) * 128 + c.val) / 128 % 5) * 128 + ((e.val * 5 + l.val) * 128 + c.val) % 128) % 1280 = 128 * l.val + c.val
    omega

/-- The imaginary result rows: row l, channel c of edge e is output 640 + 128 l + c. -/
theorem ref_rows2i (x0 : (⟨S50000x29x128, .f32⟩ : BufTy).Contents (Elt Ideal)) (x1 : (⟨S50000x2304, .f32⟩ : BufTy).Contents (Elt Ideal)) (x6 x7 : (⟨S640x640, .f32⟩ : BufTy).Contents (Elt Ideal)) (e : Fin 50000) (l : Fin 5) (c : Fin 128) :
    val_main_v47 (F := Ideal) x0 x1 x6 x7 (ix3 e l c) = O2 x0 x1 x6 x7 e.val (640 + 128 * l.val + c.val) := by
  have he : e.val < 50000 := e.isLt
  have hl : l.val < 5 := l.isLt
  have hc : c.val < 128 := c.isLt
  rw [val_main_v47_apply, val_main_v46_apply, val_main_v43_apply]
  refine ref_o2_at x0 x1 x6 x7 _ _ _ ?_ ?_
  · show ((((((e.val * 5 + l.val) * 128 + c.val) / 640) * 2 + (1 + 0)) * 5 + ((e.val * 5 + l.val) * 128 + c.val) / 128 % 5) * 128 + ((e.val * 5 + l.val) * 128 + c.val) % 128) / 1280 = e.val
    omega
  · show ((((((e.val * 5 + l.val) * 128 + c.val) / 640) * 2 + (1 + 0)) * 5 + ((e.val * 5 + l.val) * 128 + c.val) / 128 % 5) * 128 + ((e.val * 5 + l.val) * 128 + c.val) % 128) % 1280 = 640 + 128 * l.val + c.val
    omega

end Cert.So2RefM2

end
-- ==== Proof.RefOut.lean ====
/-
  The reference's main result is the specification's.

  The result joins, along the row axis, the 7 rows of m = 0, the 6 real and 6 imaginary rows of m = 1 and the 5 real
  and 5 imaginary rows of m = 2: row l of edge e lies in exactly one of the five pieces, and there it is the
  specification's value.
-/
import proofs.«144432_j48782238548458_1_alg».proof.Proof.Spec
import proofs.«144432_j48782238548458_1_alg».proof.Proof.Gen.ReferenceIdeal.Read
import proofs.«144432_j48782238548458_1_alg».proof.Proof.RefM0
import proofs.«144432_j48782238548458_1_alg».proof.Proof.RefM1
import proofs.«144432_j48782238548458_1_alg».proof.Proof.RefM2

noncomputable section

open scoped BigOperators

namespace Cert.So2RefOut

open Idealize.ShloMosaic Idealize.ShloMosaic.ValueIdx Cert.So2Spec
open Cert.ReferenceIdeal Cert.ReferenceIdeal.Read

/-- The main result [50000, 29, 128]. -/
theorem ref_out (x0 : (⟨S50000x29x128, .f32⟩ : BufTy).Contents (Elt Ideal)) (x1 : (⟨S50000x2304, .f32⟩ : BufTy).Contents (Elt Ideal)) (x2 : (⟨S1024x896, .f32⟩ : BufTy).Contents (Elt Ideal)) (x3 : (⟨S1024, .f32⟩ : BufTy).Contents (Elt Ideal)) (x4 x5 : (⟨S768x768, .f32⟩ : BufTy).Contents (Elt Ideal)) (x6 x7 : (⟨S640x640, .f32⟩ : BufTy).Contents (Elt Ideal)) :
    val_main_v48 (F := Ideal) x0 x1 x2 x3 x4 x5 x6 x7 = Gout x0 x1 x2 x3 x4 x5 x6 x7 := by
  funext i
  have h1 : (i 1).val < 29 := (i 1).isLt
  show val_main_v48 (F := Ideal) x0 x1 x2 x3 x4 x5 x6 x7 i
    = outAt x0 x1 x2 x3 x4 x5 x6 x7 (i 0).val (i 1).val (i 2).val
  unfold val_main_v48 outAt
  by_cases c1 : (i 1).val < 7
  · -- rows 0 … 6: the first piece, read at the same coordinates
    rw [if_pos c1]
    refine (concatenate_apply_piece _ _ _ i 0 (by show 0 < 5; omega) S50000x7x128 _ rfl rfl 0 rfl
      (ix3 (i 0) ⟨(i 1).val, c1⟩ (i 2)) ?_ ?_).trans ?_
    · intro b hb
      match b with
      | ⟨0, _⟩ => rfl
      | ⟨1, _⟩ => exact absurd rfl hb
      | ⟨2, _⟩ => rfl
    · show 0 + (i 1).val = (i 1).val
      omega
    · exact So2RefM0.ref_rows0 x0 x1 x2 x3 (i 0) ⟨(i 1).val, c1⟩ (i 2)
  · rw [if_neg c1]
    by_cases c2 : (i 1).val < 13
    · -- rows 7 … 12: the second piece (the real rows of m = 1), past the 7 rows before it
      rw [if_pos (show (i 1).val < 19 by omega)]
      refine (concatenate_apply_piece _ _ _ i 1 (by show 1 < 5; omega) S50000x6x128 _ rfl rfl 7 rfl
        (ix3 (i 0) ⟨(i 1).val - 7, by omega⟩ (i 2)) ?_ ?_).trans ?_
      · intro b hb
        match b with
        | ⟨0, _⟩ => rfl
        | ⟨1, _⟩ => exact absurd rfl hb
        | ⟨2, _⟩ => rfl
      · show 7 + ((i 1).val - 7) = (i 1).val
        omega
      · exact So2RefM1.ref_rows1r x0 x1 x4 x5 (i 0) ⟨(i 1).val - 7, by omega⟩ (i 2)
    · by_cases c3 : (i 1).val < 19
      · -- rows 13 … 18: the third piece (the imaginary rows of m = 1), past 7 + 6 rows
        rw [if_pos c3]
        refine (concatenate_apply_piece _ _ _ i 2 (by show 2 < 5; omega) S50000x6x128 _ rfl rfl 13 rfl
          (ix3 (i 0) ⟨(i 1).val - 13, by omega⟩ (i 2)) ?_ ?_).trans ?_
        · intro b hb
          match b with
          | ⟨0, _⟩ => rfl
          | ⟨1, _⟩ => exact absurd rfl hb
          | ⟨2, _⟩ => rfl
        · show 13 + ((i 1).val - 13) = (i 1).val
          omega
        · refine (So2RefM1.ref_rows1i x0 x1 x4 x5 (i 0) ⟨(i 1).val - 13, by omega⟩ (i 2)).trans ?_
          refine congrArg (O1 x0 x1 x4 x5 (i 0).val) ?_
          show 768 + 128 * ((i 1).val - 13) + (i 2).val = 128 * ((i 1).val - 7) + (i 2).val
          omega
      · rw [if_neg c3]
        by_cases c4 : (i 1).val < 24
        · -- rows 19 … 23: the fourth piece (the real rows of m = 2), past 7 + 6 + 6 rows
          refine (concatenate_apply_piece _ _ _ i 3 (by show 3 < 5; omega) S50000x5x128 _ rfl rfl 19 rfl
            (ix3 (i 0) ⟨(i 1).val - 19, by omega⟩ (i 2)) ?_ ?_).trans ?_
          · intro b hb
            match b with
            | ⟨0, _⟩ => rfl
            | ⟨1, _⟩ => exact absurd rfl hb
            | ⟨2, _⟩ => rfl
          · show 19 + ((i 1).val - 19) = (i 1).val
            omega
          · exact So2RefM2.ref_rows2r x0 x1 x6 x7 (i 0) ⟨(i 1).val - 19, by omega⟩ (i 2)
        · -- rows 24 … 28: the fifth piece (the imaginary rows of m = 2), past 7 + 6 + 6 + 5 rows
          refine (concatenate_apply_piece _ _ _ i 4 (by show 4 < 5; omega) S50000x5x128 _ rfl rfl 24 rfl
            (ix3 (i 0) ⟨(i 1).val - 24, by omega⟩ (i 2)) ?_ ?_).trans ?_
          · intro b hb
            match b with
            | ⟨0, _⟩ => rfl
            | ⟨1, _⟩ => exact absurd rfl hb
            | ⟨2, _⟩ => rfl
          · show 24 + ((i 1).val - 24) = (i 1).val
            omega
          · refine (So2RefM2.ref_rows2i x0 x1 x6 x7 (i 0) ⟨(i 1).val - 24, by omega⟩ (i 2)).trans ?_
            refine congrArg (O2 x0 x1 x6 x7 (i 0).val) ?_
            show 640 + 128 * ((i 1).val - 24) + (i 2).val = 128 * ((i 1).val - 19) + (i 2).val
            omega

end Cert.So2RefOut

end
-- ==== Proof.lean ====
/-
  An SO(2) convolution with radial gating, 50000 edges of 29 coefficient rows by 128 channels: the kernel against the
  plain reference, over the extended reals.

  Per edge, the first 7 rows (m = 0), flattened and gated by 896 columns of the radial embedding, go through an affine
  map to 1024 numbers: 128 of them are the gate result, the other 896 are rows 0 … 6 of the main result. The next
  12 rows (m = 1: 6 real, 6 imaginary) and the last 10 (m = 2: 5 real, 5 imaginary) are gated the same way and
  multiplied by the transpose of [[w1, -w2], [w2, w1]]; the products are rows 7 … 18 and 19 … 28.

  The kernel works on 200 edges per grid point, with the transposed weights and the block matrices built once before
  the call; the reference works on all edges at once and builds the block matrix and transposes it. Both are the ONE
  function of the specification (Proof/Spec.lean), entry by entry: the kernel's side is Proof/KerBlocks.lean (its
  body's values in KerPay0 / KerPay1 / KerPay2, the prepared weights in KerHost), the reference's side
  Proof/RefOut.lean (RefM0 / RefM1 / RefM2), the block matrix read at one entry Proof/BlockMat.lean. The sums on the
  two sides run over the same terms in the same order of the contraction index, so no law of arithmetic beyond
  rewriting the indices is used and the inputs' finiteness is never opened. A change of float format is the identity
  at the extended reals, so the kernel's narrowing of the matrix unit's operands leaves no trace.
-/
import proofs.«144432_j48782238548458_1_alg».proof.Defs
import proofs.«144432_j48782238548458_1_alg».proof.Proof.Gen.Kernel
import proofs.«144432_j48782238548458_1_alg».proof.Proof.Gen.Kernel.Skeleton
import proofs.«144432_j48782238548458_1_alg».proof.Proof.Gen.Kernel.Launch
import proofs.«144432_j48782238548458_1_alg».proof.Proof.Gen.Kernel.Points
import proofs.«144432_j48782238548458_1_alg».proof.Proof.Gen.Kernel.Frame
import proofs.«144432_j48782238548458_1_alg».proof.Proof.Gen.KernelIdeal
import proofs.«144432_j48782238548458_1_alg».proof.Proof.Gen.KernelIdeal.Skeleton
import proofs.«144432_j48782238548458_1_alg».proof.Proof.Gen.KernelIdeal.Launch
import proofs.«144432_j48782238548458_1_alg».proof.Proof.Gen.KernelIdeal.Points
import proofs.«144432_j48782238548458_1_alg».proof.Proof.Gen.KernelIdeal.Frame
import proofs.«144432_j48782238548458_1_alg».proof.Proof.Gen.ReferenceIdeal
import proofs.«144432_j48782238548458_1_alg».proof.Proof.Gen.Pre_finite_inputs
import proofs.«144432_j48782238548458_1_alg».proof.Proof.Gen.KernelIdeal.Value
import proofs.«144432_j48782238548458_1_alg».proof.Proof.Gen.ReferenceIdeal.Run
import proofs.«144432_j48782238548458_1_alg».proof.Proof.Gen.ReferenceIdeal.Read
import proofs.«144432_j48782238548458_1_alg».proof.Proof.KerBlocks
import proofs.«144432_j48782238548458_1_alg».proof.Proof.RefOut
import Idealize.ShloMosaic.Adequacy
import Idealize.ShloMosaic.Init

noncomputable section

namespace Cert.Proof

open Idealize.ShloMosaic Idealize.ShloMosaic.TcCoe Idealize.SL.Sem Cert.So2Spec

/-- The kernel program at the word level runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's two arrays of the arguments; the arguments agree. -/
theorem algebraic : Cert.algebraic_KernelIdeal_ReferenceIdeal := by
  intro m ρ m' ρ' _ hagree
  refine ⟨fun c => Gout (Cert.So2KerBlocks.A0 m c) (Cert.So2KerBlocks.A1 m c) (Cert.So2KerBlocks.A2 m c) (Cert.So2KerBlocks.A3 m c)
      (Cert.So2KerBlocks.A4 m c) (Cert.So2KerBlocks.A5 m c) (Cert.So2KerBlocks.A6 m c) (Cert.So2KerBlocks.A7 m c),
    fun c => Ggate (Cert.So2KerBlocks.A0 m c) (Cert.So2KerBlocks.A1 m c) (Cert.So2KerBlocks.A2 m c) (Cert.So2KerBlocks.A3 m c),
    Cert.So2KerBlocks.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v48_eq m' c).trans ((Cert.So2RefOut.ref_out _ _ _ _ _ _ _ _).trans ?_))
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
  · refine (h c).2.1.trans ((Cert.ReferenceIdeal.Read.val_main_v15_eq _ _ _ _).trans ((Cert.So2RefM0.ref_gate _ _ _ _).trans ?_))
    rw [(hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
